-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_arg7 : FVec F S64x40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S64x40 .f32 := Host.absf main_arg7
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64x40 .f32) (main_arg6 : FVec F S40 .f32) (main_arg7 : FVec F S64x40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S2000x64 : Shape := ⟨2, ![2000, 64]⟩
abbrev S1x40 : Shape := ⟨2, ![1, 40]⟩
abbrev S100000x40 : Shape := ⟨2, ![100000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 60
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x40, .f32⟩
  | .hbm, ⟨6, _⟩ => ⟨S40, .f32⟩
  | .hbm, ⟨7, _⟩ => ⟨S64x40, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S100000, .f32⟩
  | .hbm, ⟨16, _⟩ => ⟨S1250000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1250000, .i32⟩
  | .hbm, ⟨26, _⟩ => ⟨S1250000, .i1⟩
  | .hbm, ⟨27, _⟩ => ⟨S_, .i32⟩
  | .hbm, ⟨28, _⟩ => ⟨S1250000, .i32⟩
  | .hbm, ⟨29, _⟩ => ⟨S1250000, .i32⟩
  | .hbm, ⟨30, _⟩ => ⟨S1250000, .i32⟩
  | .hbm, ⟨31, _⟩ => ⟨S1250000x1, .i32⟩
  | .hbm, ⟨32, _⟩ => ⟨S1250000x64, .f32⟩
  | .hbm, ⟨33, _⟩ => ⟨S_, .f32⟩
  | .hbm, ⟨34, _⟩ => ⟨S100000x64, .f32⟩
  | .hbm, ⟨35, _⟩ => ⟨S1250000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1250000, .i32⟩
  | .hbm, ⟨44, _⟩ => ⟨S1250000, .i1⟩
  | .hbm, ⟨45, _⟩ => ⟨S_, .i32⟩
  | .hbm, ⟨46, _⟩ => ⟨S1250000, .i32⟩
  | .hbm, ⟨47, _⟩ => ⟨S1250000, .i32⟩
  | .hbm, ⟨48, _⟩ => ⟨S1250000, .i32⟩
  | .hbm, ⟨49, _⟩ => ⟨S1250000x1, .i32⟩
  | .hbm, ⟨50, _⟩ => ⟨S1250000x64, .f32⟩
  | .hbm, ⟨51, _⟩ => ⟨S_, .f32⟩
  | .hbm, ⟨52, _⟩ => ⟨S100000x64, .f32⟩
  | .hbm, ⟨53, _⟩ => ⟨S1250000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x40, .f32⟩
  | .hbm, ⟨59, _⟩ => ⟨S100000x40, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x40, .f32⟩
  | .local _ .vmem, ⟨14, _⟩ => ⟨S1x40, .f32⟩
  | .local _ .vmem, ⟨15, _⟩ => ⟨S64x40, .f32⟩
  | .local _ .vmem, ⟨16, _⟩ => ⟨S2000x40, .f32⟩
  | .local _ .vmem, ⟨17, _⟩ => ⟨S2000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S2000x64_S64x64_S2000x64_1_0_0_1_n_n_wf : DotDims.WF S2000x64 S64x64 S2000x64 [1] [0] [0] [1] [] []
  dot_S2000x64_S64x40_S2000x40_1_0_0_1_n_n_wf : DotDims.WF S2000x64 S64x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x40.size a ≤ S64x40.size a
  hwx1_4 : ∀ i : grid1.Coords, EltTy.bits .f32 = 32 ∨ (Rect.block (s := S64x40) S64x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S100000x40.size a
  hwx1_5 : ∀ i : grid1.Coords, EltTy.bits .f32 = 32 ∨ (Rect.block (s := S100000x40) S2000x40.size (cc1_transform_5 i) (hinb1_5 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf

abbrev win0_0 : Pipeline.Window sig grid0 :=
  Pipeline.Window.ofSpec (Memref.whole main_v24) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x40, .f32⟩
  | .hbm, ⟨6, _⟩ => ⟨S40, .f32⟩
  | .hbm, ⟨7, _⟩ => ⟨S64x40, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S100000, .f32⟩
  | .hbm, ⟨29, _⟩ => ⟨S1250000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1250000, .i32⟩
  | .hbm, ⟨48, _⟩ => ⟨S1250000, .i1⟩
  | .hbm, ⟨49, _⟩ => ⟨S_, .i32⟩
  | .hbm, ⟨50, _⟩ => ⟨S1250000, .i32⟩
  | .hbm, ⟨51, _⟩ => ⟨S1250000, .i32⟩
  | .hbm, ⟨52, _⟩ => ⟨S1250000, .i32⟩
  | .hbm, ⟨53, _⟩ => ⟨S1250000x1, .i32⟩
  | .hbm, ⟨54, _⟩ => ⟨S1250000x64, .f32⟩
  | .hbm, ⟨55, _⟩ => ⟨S_, .f32⟩
  | .hbm, ⟨56, _⟩ => ⟨S100000x64, .f32⟩
  | .hbm, ⟨57, _⟩ => ⟨S1250000x1, .i32⟩
  | .hbm, ⟨58, _⟩ => ⟨S100000x64, .f32⟩
  | .hbm, ⟨59, _⟩ => ⟨S_, .f32⟩
  | .hbm, ⟨60, _⟩ => ⟨S1250000, .f32⟩
  | .hbm, ⟨61, _⟩ => ⟨S_, .f32⟩
  | .hbm, ⟨62, _⟩ => ⟨S100000, .f32⟩
  | .hbm, ⟨63, _⟩ => ⟨S1250000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x40, .f32⟩
  | .hbm, ⟨72, _⟩ => ⟨S1x40, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelGlue.lean ====
/-
  The host side of the kernel program, named: the two rows of the edge list as vectors of node numbers, the sum of the
  neighbours' rows into each node ('sums': a gather of the source rows scattered-and-added at the destination rows), the
  clamped in-degree ('degMax': the count of incoming edges, at least one), and a vector of 100000 entries laid along the
  64 columns ('cols').  The kernel program scales the sums by the reciprocal of the clamped degree.
-/
import proofs.«150844_j59373627900056_1_alg».proof.Proof.Gen.KernelIdeal

noncomputable section

namespace Cert.KernelIdeal.Glue

open Cert.KernelIdeal Cert.KernelIdeal.Facts₀ Idealize.ShloMosaic

variable {F : FTy → Type} [FloatOps F]

/-- The source nodes of the edges: row 0 of the edge list. -/
def srcs (e : (⟨S2x1250000, .i32⟩ : BufTy).Contents (Elt F)) : (⟨S1250000, .i32⟩ : BufTy).Contents (Elt F) :=
  shapeCast S1250000 (extractStridedSlice S1x1250000 ![0, 0] e slices_S2x1250000_S1x1250000_0_0) shapeCasts_S1x1250000_S1250000

/-- The destination nodes of the edges: row 1 of the edge list. -/
def dsts (e : (⟨S2x1250000, .i32⟩ : BufTy).Contents (Elt F)) : (⟨S1250000, .i32⟩ : BufTy).Contents (Elt F) :=
  shapeCast S1250000 (extractStridedSlice S1x1250000 ![1, 0] e slices_S2x1250000_S1x1250000_1_0) shapeCasts_S1x1250000_S1250000

/-- The all-ones vector over the nodes. -/
def ones : (⟨S100000, .f32⟩ : BufTy).Contents (Elt F) :=
  broadcastInDim S100000 ![] bcast_S_S100000 (constant S_ .f32 0x3F800000#32)

/-- The number of edges into each node, at least one. -/
def degMax (d : (⟨S1250000, .i32⟩ : BufTy).Contents (Elt F)) : (⟨S100000, .f32⟩ : BufTy).Contents (Elt F) :=
  maximumf
    (Host.scatterAdd scatter_S100000_S1250000x1_S1250000_n_0_0_1
      (broadcastInDim S100000 ![] bcast_S_S100000 (constant S_ .f32 0x00000000#32))
      (broadcastInDim S1250000x1 ![0] bcast_S1250000_S1250000x1_0 d)
      (broadcastInDim S1250000 ![] bcast_S_S1250000 (constant S_ .f32 0x3F800000#32)))
    (ones (F := F))

/-- For each node, the sum over its incoming edges of the source node's row of H. -/
def sums (s d : (⟨S1250000, .i32⟩ : BufTy).Contents (Elt F)) (H : (⟨S100000x64, .f32⟩ : BufTy).Contents (Elt F)) :
    (⟨S100000x64, .f32⟩ : BufTy).Contents (Elt F) :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 d)
    (Host.gather gather_S100000x64_S1250000x1_S1250000x64_1_0_n_n_0_1_164 H
      (broadcastInDim S1250000x1 ![0] bcast_S1250000_S1250000x1_0
        (select (cmpi .slt s (broadcastInDim S1250000 ![] bcast_S_S1250000 (constantI S_ 32 0#32)))
          (addi s (broadcastInDim S1250000 ![] bcast_S_S1250000 (constantI S_ 32 100000#32))) s)))

/-- A value per node laid along the 64 columns. -/
def cols (w : (⟨S100000, .f32⟩ : BufTy).Contents (Elt F)) : (⟨S100000x64, .f32⟩ : BufTy).Contents (Elt F) :=
  broadcastInDim S100000x64 ![0, 1] bcast_S100000x1_S100000x64_0_1 (broadcastInDim S100000x1 ![0] bcast_S100000_S100000x1_0 w)

/-- The reciprocal of the clamped in-degree. -/
def invDeg (d : (⟨S1250000, .i32⟩ : BufTy).Contents (Elt F)) : (⟨S100000, .f32⟩ : BufTy).Contents (Elt F) :=
  Host.divf (ones (F := F)) (degMax d)

/-- The neighbourhood mean as the kernel program forms it: the sums scaled by a per-node weight. -/
def mean (s d : (⟨S1250000, .i32⟩ : BufTy).Contents (Elt F)) (w : (⟨S100000, .f32⟩ : BufTy).Contents (Elt F))
    (H : (⟨S100000x64, .f32⟩ : BufTy).Contents (Elt F)) : (⟨S100000x64, .f32⟩ : BufTy).Contents (Elt F) :=
  mulf (sums s d H) (cols w)

end Cert.KernelIdeal.Glue

end
-- ==== Proof.Spec.lean ====
/-
  The mathematics both programs compute, on the extended reals, index by index.

  One layer takes node features X (N rows of 64), their neighbourhood means A (same shape), two weight matrices and a
  bias row, and forms at row n and column q the number  (A·W_l)[n,q] + b[q] + (X·W_r)[n,q]  ('lin').  The first layer
  clamps it below at zero ('hidden'); the second subtracts the row's maximum, and then the logarithm of the row's sum of
  exponentials ('logp'): a log-softmax along the row.  The row count N is a parameter: the same definitions read a
  block of 2000 rows and the whole array of 100000 rows, and a block of the whole array's result is the result of the
  block, because a row of the result depends only on the same row of A and X.

  Also here: how the kernel's and the host's spellings of a product, a row broadcast, a column broadcast and a row
  reduction read at an index, and the one law of real arithmetic the equivalence needs: a sum scaled by the reciprocal
  1 / max(d, 1) is the sum divided by max(d, 1), on every extended real, since max(d, 1) is never zero.
-/
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws
import Idealize.ShloMosaic.PureOps.IdealRules
import Idealize.ShloMosaic.PureOps.Reduce

noncomputable section

namespace Cert.Sage

open Idealize.ShloMosaic Idealize.ShloMosaic.ValueIdx

/-- A matrix of extended reals with r rows and c columns; a row vector of c entries. -/
abbrev Mat (r c : ℕ) : Type := FVec Ideal (⟨2, ![r, c]⟩ : Shape) .f32
abbrev Row (c : ℕ) : Type := FVec Ideal (⟨1, ![c]⟩ : Shape) .f32

/-- (A·W_l)[n,q] + b[q] + (X·W_r)[n,q]. -/
def lin {N d : ℕ} (A X : Mat N 64) (Wl Wr : Mat 64 d) (b : Row d) (n : Fin N) (q : Fin d) : EReal :=
  (∑ k : Fin 64, A (ix2 n k) * Wl (ix2 k q)) + b (ix1 q) + ∑ k : Fin 64, X (ix2 n k) * Wr (ix2 k q)

/-- The first layer: 'lin' clamped below at zero. -/
def hidden {N : ℕ} (A X : Mat N 64) (Wl Wr : Mat 64 64) (b : Row 64) : Mat N 64 :=
  fun i => max (lin A X Wl Wr b (i 0) (i 1)) 0

/-- The largest entry of a row, as the fold of 'max' from minus infinity. -/
def rowMax {d : ℕ} (o : Fin d → EReal) : EReal := (Finset.univ : Finset (Fin d)).fold max ⊥ o

/-- Log-softmax of a row at an entry: (o_q − max o) − log Σ_k exp (o_k − max o). -/
def logSoftmaxRow {d : ℕ} (o : Fin d → EReal) (q : Fin d) : EReal :=
  (o q - rowMax o) - Ideal.log (∑ k : Fin d, Ideal.exp (o k - rowMax o))

/-- The second layer: the log-softmax of 'lin' along each row. -/
def logp {N : ℕ} (A X : Mat N 64) (Wl Wr : Mat 64 40) (b : Row 40) : Mat N 40 :=
  fun i => logSoftmaxRow (lin A X Wl Wr b (i 0)) (i 1)

/-! ## Constants -/

theorem one_f32 : Ideal.ofBits .f32 0x3F800000#32 = 1 := IdealRules.sign_bit.ideal_onePat .f32
theorem negInf_f32 : Ideal.ofBits .f32 0xFF800000#32 = ⊥ := by simp [Ideal.ofBits, Ideal.ieee]

/-! ## The law -/

/-- Scaling by 1 / max(d, 1) is dividing by max(d, 1): the divisor is at least one, so never zero, and off zero a quotient
    is the product with the inverse. -/
theorem mul_inv_max_one (s d : EReal) : s * Ideal.div 1 (max d 1) = Ideal.div s (max d 1) := by
  have h : max d 1 ≠ 0 := ne_of_gt (lt_of_lt_of_le zero_lt_one (le_max_right d 1))
  unfold Ideal.div
  rw [if_neg h, if_neg h, one_mul]

/-- The maximum with minus infinity is the other argument. -/
theorem max_bot_left (x : EReal) : max ⊥ x = x := max_eq_right bot_le

end Cert.Sage

end
-- ==== Proof.Reads.lean ====
/-
  The two programs' spellings read at an index.

  A host program lays a vector along the rows of a matrix by two 'broadcast_in_dim's, and a column along the columns
  likewise; a kernel does the first by broadcasting a one-row matrix and the second by a cast to a one-column matrix that
  it then broadcasts.  A kernel's matrix product accumulates into zero where the host's has no accumulator; a kernel's
  row reductions start from the neutral element where the host's start from an initial value.  Each pair reads, at a row
  n and a column q, the same entry or the same sum or fold over the row.  With these, each program's spelling of a
  whole layer is the layer of Spec.lean: 'hidden' for the first, 'logp' for the second.
-/
import proofs.«150844_j59373627900056_1_alg».proof.Proof.Spec

noncomputable section

namespace Cert.Sage

open Idealize.ShloMosaic Idealize.ShloMosaic.ValueIdx

section Layout
variable {α : Type}

/-- A coordinate below N is itself, or zero when N is one. -/
theorem val_eq_ite_one {N : ℕ} (n : Fin N) : n.val = if N = 1 then 0 else n.val := by
  split
  · have := n.isLt; omega
  · rfl

/-- Host: a one-column matrix laid along d columns reads its column. -/
theorem hostCols_apply {N d : ℕ} (Y : (⟨2, ![N, 1]⟩ : Shape).Idx → α)
    (h2 : (⟨2, ![N, 1]⟩ : Shape).BroadcastsInDim ⟨2, ![N, d]⟩ ![0, 1]) (n : Fin N) (q : Fin d) :
    broadcastInDim ⟨2, ![N, d]⟩ ![0, 1] h2 Y (ix2 n q) = Y (ix2 n (0 : Fin 1)) := by
  refine broadcastInDim_apply ![0, 1] h2 Y (ix2 n q) (ix2 n (0 : Fin 1)) ?_
  intro a
  match a with
  | ⟨0, _⟩ => exact val_eq_ite_one n
  | ⟨1, _⟩ => show (0 : ℕ) = if (1 : ℕ) = 1 then 0 else q.val; rw [if_pos rfl]

/-- Host: a vector of N entries as a one-column matrix. -/
theorem hostCol_apply {N : ℕ} (y : (⟨1, ![N]⟩ : Shape).Idx → α)
    (h1 : (⟨1, ![N]⟩ : Shape).BroadcastsInDim ⟨2, ![N, 1]⟩ ![0]) (n : Fin N) :
    broadcastInDim ⟨2, ![N, 1]⟩ ![0] h1 y (ix2 n (0 : Fin 1)) = y (ix1 n) := by
  refine broadcastInDim_apply ![0] h1 y (ix2 n (0 : Fin 1)) (ix1 n) ?_
  intro a
  match a with
  | ⟨0, _⟩ => exact val_eq_ite_one n

/-- Host: a vector of d entries laid along each of N rows. -/
theorem hostRows_apply {N d : ℕ} (b : (⟨1, ![d]⟩ : Shape).Idx → α)
    (h1 : (⟨1, ![d]⟩ : Shape).BroadcastsInDim ⟨2, ![1, d]⟩ ![1])
    (h2 : (⟨2, ![1, d]⟩ : Shape).BroadcastsInDim ⟨2, ![N, d]⟩ ![0, 1]) (n : Fin N) (q : Fin d) :
    broadcastInDim ⟨2, ![N, d]⟩ ![0, 1] h2 (broadcastInDim ⟨2, ![1, d]⟩ ![1] h1 b) (ix2 n q) = b (ix1 q) := by
  refine (broadcastInDim_oneRow_apply h2 _ n q).trans (broadcastInDim_apply ![1] h1 b (ix2 (0 : Fin 1) q) (ix1 q) ?_)
  intro a
  match a with
  | ⟨0, _⟩ => exact val_eq_ite_one q

/-- Kernel: a one-column matrix broadcast along d columns reads its column. -/
theorem kernelCols_apply {N d : ℕ} (Y : (⟨2, ![N, 1]⟩ : Shape).Idx → α)
    (hb : (⟨2, ![N, 1]⟩ : Shape).Broadcasts ⟨2, ![N, d]⟩) (n : Fin N) (q : Fin d) :
    broadcastTo ⟨2, ![N, d]⟩ Y hb (ix2 n q) = Y (ix2 n (0 : Fin 1)) := by
  refine broadcastTo_apply Y hb (ix2 n q) (ix2 n (0 : Fin 1)) ?_
  intro a
  match a with
  | ⟨0, _⟩ => exact val_eq_ite_one n
  | ⟨1, _⟩ => show (0 : ℕ) = if (1 : ℕ) = 1 then 0 else q.val; rw [if_pos rfl]

/-- Kernel: a vector of N entries cast to a one-column matrix. -/
theorem kernelCol_apply {N : ℕ} (y : (⟨1, ![N]⟩ : Shape).Idx → α)
    (hc : (⟨1, ![N]⟩ : Shape).ShapeCasts ⟨2, ![N, 1]⟩) (n : Fin N) :
    shapeCast ⟨2, ![N, 1]⟩ y hc (ix2 n (0 : Fin 1)) = y (ix1 n) :=
  shapeCast_apply y hc _ _ (by
    rw [Shape.rowMajor_val_two, Shape.rowMajor_val_one]
    show n.val = n.val * 1 + 0
    omega)

end Layout

/-! ## Row reductions -/

/-- Along the second axis, the index of row n with the coordinate k put back is (n, k). -/
theorem lift_row {N d : ℕ} (h : (⟨2, ![N, d]⟩ : Shape).Reduces [1] ⟨1, ![N]⟩) (n : Fin N) (k : Fin d) :
    h.lift (ix1 n) k = ix2 n k := by
  funext a
  apply Fin.ext
  match a with
  | ⟨0, _⟩ => rfl
  | ⟨1, _⟩ => rfl

/-- Kernel: the sum of a row. -/
theorem kernelRowSum_apply {N d : ℕ} (src : FVec Ideal ⟨2, ![N, d]⟩ .f32) (acc : BitVec 32)
    (h : (⟨2, ![N, d]⟩ : Shape).Reduces [1] ⟨1, ![N]⟩) (hφ : FKind.Formats .f32) (hacc : acc = FKind.add.neutral .f32 hφ)
    (n : Fin N) :
    multiReduction .add [1] ⟨1, ![N]⟩ src acc h hφ hacc (ix1 n) = ∑ k : Fin d, src (ix2 n k) := by
  refine (Ideal.multiReduction_add_single src acc h hφ hacc (ix1 n)).trans ?_
  show (∑ k : Fin d, src (h.lift (ix1 n) k)) = _
  exact Finset.sum_congr rfl fun k _ => congrArg src (lift_row h n k)

/-- Kernel: the maximum of a row, from minus infinity. -/
theorem kernelRowMax_apply {N d : ℕ} (src : FVec Ideal ⟨2, ![N, d]⟩ .f32)
    (h : (⟨2, ![N, d]⟩ : Shape).Reduces [1] ⟨1, ![N]⟩) (hφ : FKind.Formats .f32)
    (hacc : (0xFF800000#32 : BitVec 32) = FKind.maximumf.neutral .f32 hφ) (n : Fin N) :
    multiReduction .maximumf [1] ⟨1, ![N]⟩ src 0xFF800000#32 h hφ hacc (ix1 n) = rowMax fun k => src (ix2 n k) := by
  refine (Ideal.multiReduction_maximumf_single src _ h hφ hacc (ix1 n)).trans ?_
  show (Finset.univ : Finset (Fin d)).fold max (Ideal.ofBits .f32 0xFF800000#32) (src ∘ h.lift (ix1 n)) = _
  rw [negInf_f32]
  unfold rowMax
  have e : (src ∘ h.lift (ix1 n)) = fun k : Fin d => src (ix2 n k) := funext fun k => congrArg src (lift_row h n k)
  rw [e]
  rfl

/-- Host: the sum of a row from an initial value. -/
theorem hostRowSum_apply {N d : ℕ} {u : Shape} (x : FVec Ideal ⟨2, ![N, d]⟩ .f32) (init : u.Idx → Ideal .f32)
    (h' : (⟨2, ![N, d]⟩ : Shape).ReducesTo [1] ⟨1, ![N]⟩) (h : (⟨2, ![N, d]⟩ : Shape).Reduces [1] ⟨1, ![N]⟩)
    (hu : 0 < u.numel) (n : Fin N) :
    Host.reduceAdd x init h' hu (ix1 n) = init (Shape.Idx.first hu) + ∑ k : Fin d, x (ix2 n k) := by
  show Ideal.hostReduceAdd h' x (init (Shape.Idx.first hu)) (ix1 n) = _
  rw [Ideal.hostReduceAdd_single h' h]
  show _ + (∑ k : Fin d, x (h.lift (ix1 n) k)) = _
  exact congrArg _ (Finset.sum_congr rfl fun k _ => congrArg x (lift_row h n k))

/-- Host: the maximum of a row from an initial value. -/
theorem hostRowMax_apply {N d : ℕ} {u : Shape} (x : FVec Ideal ⟨2, ![N, d]⟩ .f32) (init : u.Idx → Ideal .f32)
    (h' : (⟨2, ![N, d]⟩ : Shape).ReducesTo [1] ⟨1, ![N]⟩) (h : (⟨2, ![N, d]⟩ : Shape).Reduces [1] ⟨1, ![N]⟩)
    (hu : 0 < u.numel) (n : Fin N) :
    Host.reduce (FloatOps.maximumf (F := Ideal) (φ := .f32)) x init h' hu (ix1 n)
      = (Finset.univ : Finset (Fin d)).fold max (init (Shape.Idx.first hu)) fun k => x (ix2 n k) := by
  refine (Host.reduce_eq_fold_single _ x init h' h hu (ix1 n)).trans ?_
  show (Finset.univ : Finset (Fin d)).fold max _ (x ∘ h.lift (ix1 n)) = _
  have e : (x ∘ h.lift (ix1 n)) = fun k : Fin d => x (ix2 n k) := funext fun k => congrArg x (lift_row h n k)
  rw [e]
  rfl

end Cert.Sage

end
-- ==== Proof.Layers.lean ====
/-
  A whole layer, as each program spells it, is the layer of Spec.lean.

  The first layer: the host forms  max(A·W_l + rows(b) + X·W_r, 0)  with 'dot_general' and two 'broadcast_in_dim's of the
  bias; the kernel forms it on a block with two matrix products into zero and the broadcast of the bias's one-row
  matrix.  Read at (n, q), both are  max(lin n q, 0): the products are the sums over the 64 contracted coordinates, and
  zero plus a sum is the sum.

  The second layer ends in a log-softmax along the row.  Both programs subtract the row's maximum (the host takes one
  more maximum with minus infinity, which changes nothing), exponentiate, sum the row, take the logarithm and subtract
  it; the kernel's 'exp' and 'log' and the host's are one function on the extended reals.
-/
import proofs.«150844_j59373627900056_1_alg».proof.Proof.Reads

noncomputable section

namespace Cert.Sage

open Idealize.ShloMosaic Idealize.ShloMosaic.ValueIdx Idealize.ShloMosaic.StackMember

/-! ## The first layer -/

/-- The host's spelling of the first layer over N rows. -/
theorem hostHidden_eq {N : ℕ} (A X : Mat N 64) (Wl Wr : Mat 64 64) (b : Row 64)
    (h1 : (⟨1, ![64]⟩ : Shape).BroadcastsInDim ⟨2, ![1, 64]⟩ ![1])
    (h2 : (⟨2, ![1, 64]⟩ : Shape).BroadcastsInDim ⟨2, ![N, 64]⟩ ![0, 1])
    (h0 : (⟨0, ![]⟩ : Shape).BroadcastsInDim ⟨2, ![N, 64]⟩ ![]) :
    maximumf (addf (addf (Host.dotGeneral (DotDims.plain N 64 64) none A Wl)
        (broadcastInDim ⟨2, ![N, 64]⟩ ![0, 1] h2 (broadcastInDim ⟨2, ![1, 64]⟩ ![1] h1 b)))
        (Host.dotGeneral (DotDims.plain N 64 64) none X Wr))
      (broadcastInDim ⟨2, ![N, 64]⟩ ![] h0 (constant (F := Ideal) ⟨0, ![]⟩ .f32 0x00000000#32))
    = hidden A X Wl Wr b := by
  funext i
  obtain ⟨n, q, rfl⟩ : ∃ (n : Fin N) (q : Fin 64), i = ix2 n q := ⟨i 0, i 1, eq_ix2 i⟩
  show max (Host.dotGeneral (DotDims.plain N 64 64) none A Wl (ix2 n q)
      + broadcastInDim ⟨2, ![N, 64]⟩ ![0, 1] h2 (broadcastInDim ⟨2, ![1, 64]⟩ ![1] h1 b) (ix2 n q)
      + Host.dotGeneral (DotDims.plain N 64 64) none X Wr (ix2 n q)) (Ideal.ofBits .f32 0x00000000#32)
    = max (lin A X Wl Wr b n q) 0
  rw [dotGeneral_plain_apply, dotGeneral_plain_apply, hostRows_apply, Ideal.ofBits_zero_f32]
  rfl

/-- The kernel's spelling of the first layer on a block of N rows; its bias arrives as a one-row matrix. -/
theorem kernelHidden_eq {N : ℕ} (v0 v3 : Mat N 64) (v5 v7 : Mat 64 64) (v9 : Mat 1 64)
    (hb : (⟨2, ![1, 64]⟩ : Shape).Broadcasts ⟨2, ![N, 64]⟩) :
    maximumf (addf (addf (matmul (DotDims.plain N 64 64) none v0 v5 (constant ⟨2, ![N, 64]⟩ .f32 0x00000000#32))
        (broadcastTo ⟨2, ![N, 64]⟩ v9 hb))
        (matmul (DotDims.plain N 64 64) none v3 v7 (constant ⟨2, ![N, 64]⟩ .f32 0x00000000#32)))
      (broadcast ⟨2, ![N, 64]⟩ (Scalar.ofBits (F := Ideal) .f32 0x00000000#32))
    = hidden v0 v3 v5 v7 (fun i => v9 (ix2 (0 : Fin 1) (i 0))) := by
  rw [matmul_zero_eq_dotGeneral, matmul_zero_eq_dotGeneral]
  funext i
  obtain ⟨n, q, rfl⟩ : ∃ (n : Fin N) (q : Fin 64), i = ix2 n q := ⟨i 0, i 1, eq_ix2 i⟩
  show max (Host.dotGeneral (DotDims.plain N 64 64) none v0 v5 (ix2 n q)
      + broadcastTo ⟨2, ![N, 64]⟩ v9 hb (ix2 n q)
      + Host.dotGeneral (DotDims.plain N 64 64) none v3 v7 (ix2 n q)) (Ideal.ofBits .f32 0x00000000#32)
    = max (lin v0 v3 v5 v7 (fun i => v9 (ix2 (0 : Fin 1) (i 0))) n q) 0
  rw [dotGeneral_plain_apply, dotGeneral_plain_apply, broadcastTo_1b_ab_apply, Ideal.ofBits_zero_f32]
  rfl

/-! ## The second layer -/

/-- The host's linear part of the second layer, read at an index. -/
theorem hostLin_apply {N : ℕ} (A X : Mat N 64) (Wl Wr : Mat 64 40) (b : Row 40)
    (h1 : (⟨1, ![40]⟩ : Shape).BroadcastsInDim ⟨2, ![1, 40]⟩ ![1])
    (h2 : (⟨2, ![1, 40]⟩ : Shape).BroadcastsInDim ⟨2, ![N, 40]⟩ ![0, 1]) (n : Fin N) (q : Fin 40) :
    addf (addf (Host.dotGeneral (DotDims.plain N 64 40) none A Wl)
        (broadcastInDim ⟨2, ![N, 40]⟩ ![0, 1] h2 (broadcastInDim ⟨2, ![1, 40]⟩ ![1] h1 b)))
        (Host.dotGeneral (DotDims.plain N 64 40) none X Wr) (ix2 n q)
    = lin A X Wl Wr b n q := by
  show Host.dotGeneral (DotDims.plain N 64 40) none A Wl (ix2 n q)
      + broadcastInDim ⟨2, ![N, 40]⟩ ![0, 1] h2 (broadcastInDim ⟨2, ![1, 40]⟩ ![1] h1 b) (ix2 n q)
      + Host.dotGeneral (DotDims.plain N 64 40) none X Wr (ix2 n q) = _
  rw [dotGeneral_plain_apply, dotGeneral_plain_apply, hostRows_apply]
  rfl

/-- The kernel's linear part of the second layer on a block, read at an index. -/
theorem kernelLin_apply {N : ℕ} (v0 v3 : Mat N 64) (v6 v8 : Mat 64 40) (v10 : Mat 1 40)
    (hb : (⟨2, ![1, 40]⟩ : Shape).Broadcasts ⟨2, ![N, 40]⟩) (n : Fin N) (q : Fin 40) :
    addf (addf (matmul (DotDims.plain N 64 40) none v0 v6 (constant ⟨2, ![N, 40]⟩ .f32 0x00000000#32))
        (broadcastTo ⟨2, ![N, 40]⟩ v10 hb))
        (matmul (DotDims.plain N 64 40) none v3 v8 (constant ⟨2, ![N, 40]⟩ .f32 0x00000000#32)) (ix2 n q)
    = lin v0 v3 v6 v8 (fun i => v10 (ix2 (0 : Fin 1) (i 0))) n q := by
  rw [matmul_zero_eq_dotGeneral, matmul_zero_eq_dotGeneral]
  show Host.dotGeneral (DotDims.plain N 64 40) none v0 v6 (ix2 n q) + broadcastTo ⟨2, ![N, 40]⟩ v10 hb (ix2 n q)
      + Host.dotGeneral (DotDims.plain N 64 40) none v3 v8 (ix2 n q) = _
  rw [dotGeneral_plain_apply, dotGeneral_plain_apply, broadcastTo_1b_ab_apply]
  rfl

/-- The host's log-softmax along the rows of a matrix o of N rows and 40 columns. -/
theorem hostLogSoftmax_eq {N : ℕ} (o : Mat N 40)
    (hR' : (⟨2, ![N, 40]⟩ : Shape).ReducesTo [1] ⟨1, ![N]⟩) (hR : (⟨2, ![N, 40]⟩ : Shape).Reduces [1] ⟨1, ![N]⟩)
    (hu : 0 < (⟨0, ![]⟩ : Shape).numel)
    (hb0 : (⟨0, ![]⟩ : Shape).BroadcastsInDim ⟨1, ![N]⟩ ![])
    (h1 : (⟨1, ![N]⟩ : Shape).BroadcastsInDim ⟨2, ![N, 1]⟩ ![0])
    (h2 : (⟨2, ![N, 1]⟩ : Shape).BroadcastsInDim ⟨2, ![N, 40]⟩ ![0, 1]) :
    subf (subf o (broadcastInDim ⟨2, ![N, 40]⟩ ![0, 1] h2 (broadcastInDim ⟨2, ![N, 1]⟩ ![0] h1
          (maximumf (broadcastInDim ⟨1, ![N]⟩ ![] hb0 (constant (F := Ideal) ⟨0, ![]⟩ .f32 0xFF800000#32))
            (Host.reduce FloatOps.maximumf o (constant (F := Ideal) ⟨0, ![]⟩ .f32 0xFF800000#32) hR' hu)))))
      (broadcastInDim ⟨2, ![N, 40]⟩ ![0, 1] h2 (Host.log (broadcastInDim ⟨2, ![N, 1]⟩ ![0] h1
        (Host.reduceAdd (Host.exp (subf o (broadcastInDim ⟨2, ![N, 40]⟩ ![0, 1] h2 (broadcastInDim ⟨2, ![N, 1]⟩ ![0] h1
          (maximumf (broadcastInDim ⟨1, ![N]⟩ ![] hb0 (constant (F := Ideal) ⟨0, ![]⟩ .f32 0xFF800000#32))
            (Host.reduce FloatOps.maximumf o (constant (F := Ideal) ⟨0, ![]⟩ .f32 0xFF800000#32) hR' hu))))))
          (constant (F := Ideal) ⟨0, ![]⟩ .f32 0x00000000#32) hR' hu))))
    = fun i => logSoftmaxRow (fun k => o (ix2 (i 0) k)) (i 1) := by
  have hm : ∀ n : Fin N, (maximumf (broadcastInDim ⟨1, ![N]⟩ ![] hb0 (constant (F := Ideal) ⟨0, ![]⟩ .f32 0xFF800000#32))
      (Host.reduce FloatOps.maximumf o (constant (F := Ideal) ⟨0, ![]⟩ .f32 0xFF800000#32) hR' hu)) (ix1 n)
      = rowMax fun k => o (ix2 n k) := by
    intro n
    show max (Ideal.ofBits .f32 0xFF800000#32)
      (Host.reduce FloatOps.maximumf o (constant (F := Ideal) ⟨0, ![]⟩ .f32 0xFF800000#32) hR' hu (ix1 n)) = _
    rw [hostRowMax_apply o _ hR' hR hu n, negInf_f32, max_bot_left]
    show (Finset.univ : Finset (Fin 40)).fold max (Ideal.ofBits .f32 0xFF800000#32) _ = _
    rw [negInf_f32]
    rfl
  generalize maximumf (broadcastInDim ⟨1, ![N]⟩ ![] hb0 (constant (F := Ideal) ⟨0, ![]⟩ .f32 0xFF800000#32))
      (Host.reduce FloatOps.maximumf o (constant (F := Ideal) ⟨0, ![]⟩ .f32 0xFF800000#32) hR' hu) = mx at hm ⊢
  have hz : ∀ (n : Fin N) (k : Fin 40),
      subf o (broadcastInDim ⟨2, ![N, 40]⟩ ![0, 1] h2 (broadcastInDim ⟨2, ![N, 1]⟩ ![0] h1 mx)) (ix2 n k)
        = o (ix2 n k) - rowMax fun k => o (ix2 n k) := by
    intro n k
    show o (ix2 n k) - broadcastInDim ⟨2, ![N, 40]⟩ ![0, 1] h2 (broadcastInDim ⟨2, ![N, 1]⟩ ![0] h1 mx) (ix2 n k) = _
    rw [hostCols_apply, hostCol_apply, hm]
  generalize subf o (broadcastInDim ⟨2, ![N, 40]⟩ ![0, 1] h2 (broadcastInDim ⟨2, ![N, 1]⟩ ![0] h1 mx)) = z at hz ⊢
  funext i
  obtain ⟨n, q, rfl⟩ : ∃ (n : Fin N) (q : Fin 40), i = ix2 n q := ⟨i 0, i 1, eq_ix2 i⟩
  show z (ix2 n q) - broadcastInDim ⟨2, ![N, 40]⟩ ![0, 1] h2 (Host.log (broadcastInDim ⟨2, ![N, 1]⟩ ![0] h1
      (Host.reduceAdd (Host.exp z) (constant (F := Ideal) ⟨0, ![]⟩ .f32 0x00000000#32) hR' hu))) (ix2 n q) = _
  rw [hostCols_apply]
  show z (ix2 n q) - Ideal.log (broadcastInDim ⟨2, ![N, 1]⟩ ![0] h1
      (Host.reduceAdd (Host.exp z) (constant (F := Ideal) ⟨0, ![]⟩ .f32 0x00000000#32) hR' hu) (ix2 n (0 : Fin 1))) = _
  rw [hostCol_apply, hostRowSum_apply (Host.exp z) _ hR' hR hu n]
  show z (ix2 n q) - Ideal.log (Ideal.ofBits .f32 0x00000000#32 + ∑ k : Fin 40, Ideal.exp (z (ix2 n k))) = _
  rw [Ideal.ofBits_zero_f32, zero_add, hz n q]
  unfold logSoftmaxRow
  exact congrArg (fun s => _ - Ideal.log s) (Finset.sum_congr rfl fun k _ => by rw [hz n k]; rfl)

/-- The kernel's log-softmax along the rows of a block o of N rows and 40 columns. -/
theorem kernelLogSoftmax_eq {N : ℕ} (o : Mat N 40)
    (hR : (⟨2, ![N, 40]⟩ : Shape).Reduces [1] ⟨1, ![N]⟩) (hφ : FKind.Formats .f32)
    (ha1 : (0xFF800000#32 : BitVec 32) = FKind.maximumf.neutral .f32 hφ)
    (ha2 : (0x00000000#32 : BitVec 32) = FKind.add.neutral .f32 hφ)
    (hc : (⟨1, ![N]⟩ : Shape).ShapeCasts ⟨2, ![N, 1]⟩)
    (hb : (⟨2, ![N, 1]⟩ : Shape).Broadcasts ⟨2, ![N, 40]⟩) :
    subf (subf o (broadcastTo ⟨2, ![N, 40]⟩ (shapeCast ⟨2, ![N, 1]⟩
          (multiReduction .maximumf [1] ⟨1, ![N]⟩ o 0xFF800000#32 hR hφ ha1) hc) hb))
      (broadcastTo ⟨2, ![N, 40]⟩ (log (shapeCast ⟨2, ![N, 1]⟩
        (multiReduction .add [1] ⟨1, ![N]⟩ (exp (subf o (broadcastTo ⟨2, ![N, 40]⟩ (shapeCast ⟨2, ![N, 1]⟩
          (multiReduction .maximumf [1] ⟨1, ![N]⟩ o 0xFF800000#32 hR hφ ha1) hc) hb))) 0x00000000#32 hR hφ ha2) hc)) hb)
    = fun i => logSoftmaxRow (fun k => o (ix2 (i 0) k)) (i 1) := by
  have hz : ∀ (n : Fin N) (k : Fin 40),
      subf o (broadcastTo ⟨2, ![N, 40]⟩ (shapeCast ⟨2, ![N, 1]⟩
          (multiReduction .maximumf [1] ⟨1, ![N]⟩ o 0xFF800000#32 hR hφ ha1) hc) hb) (ix2 n k)
        = o (ix2 n k) - rowMax fun k => o (ix2 n k) := by
    intro n k
    show o (ix2 n k) - broadcastTo ⟨2, ![N, 40]⟩ (shapeCast ⟨2, ![N, 1]⟩
          (multiReduction .maximumf [1] ⟨1, ![N]⟩ o 0xFF800000#32 hR hφ ha1) hc) hb (ix2 n k) = _
    rw [kernelCols_apply, kernelCol_apply, kernelRowMax_apply]
  generalize subf o (broadcastTo ⟨2, ![N, 40]⟩ (shapeCast ⟨2, ![N, 1]⟩
          (multiReduction .maximumf [1] ⟨1, ![N]⟩ o 0xFF800000#32 hR hφ ha1) hc) hb) = z at hz ⊢
  funext i
  obtain ⟨n, q, rfl⟩ : ∃ (n : Fin N) (q : Fin 40), i = ix2 n q := ⟨i 0, i 1, eq_ix2 i⟩
  show z (ix2 n q) - broadcastTo ⟨2, ![N, 40]⟩ (log (shapeCast ⟨2, ![N, 1]⟩
        (multiReduction .add [1] ⟨1, ![N]⟩ (exp z) 0x00000000#32 hR hφ ha2) hc)) hb (ix2 n q) = _
  rw [kernelCols_apply]
  show z (ix2 n q) - Ideal.log (shapeCast ⟨2, ![N, 1]⟩
        (multiReduction .add [1] ⟨1, ![N]⟩ (exp z) 0x00000000#32 hR hφ ha2) hc (ix2 n (0 : Fin 1))) = _
  rw [kernelCol_apply, kernelRowSum_apply]
  show z (ix2 n q) - Ideal.log (∑ k : Fin 40, Ideal.exp (z (ix2 n k))) = _
  rw [hz n q]
  unfold logSoftmaxRow
  exact congrArg (fun s => _ - Ideal.log s) (Finset.sum_congr rfl fun k _ => by rw [hz n k]; rfl)

end Cert.Sage

end
-- ==== Proof.KernelPayload.lean ====
/-
  The kernels' arithmetic on a block is the layer of the block.

  What the first kernel stores at a grid point — two matrix products of the block's 2000 rows into zero, the bias row
  broadcast down the block, the clamp at zero — is 'hidden' of the two input blocks, the two weight matrices and the bias;
  what the second stores is 'logp' of its inputs.  The changes of float format around the products are the identity on
  the extended reals, and a cast to the same shape is the identity.
-/
import proofs.«150844_j59373627900056_1_alg».proof.Proof.Gen.KernelIdeal.Skeleton
import proofs.«150844_j59373627900056_1_alg».proof.Proof.Layers

noncomputable section

namespace Cert.KernelIdeal.Payload

open Cert.KernelIdeal Cert.KernelIdeal.Gen Idealize.ShloMosaic Idealize.ShloMosaic.ValueIdx Cert.Sage

/-- The first kernel's stored value on a block. -/
theorem pay0_eq (v0 v3 : Vec Ideal S2000x64 .f32) (v5 v7 : Vec Ideal S64x64 .f32) (v9 : Vec Ideal S1x64 .f32) :
    k0_pay1 (F := Ideal) v0 v3 v5 v7 v9 = hidden v0 v3 v5 v7 (fun i => v9 (ix2 (0 : Fin 1) (i 0))) := by
  unfold k0_pay1
  simp only [shapeCast_self]
  exact kernelHidden_eq (N := 2000) v0 v3 v5 v7 v9 broadcasts_S1x64_S2000x64

/-- The second kernel's stored value on a block. -/
theorem pay1_eq (v0 v3 : Vec Ideal S2000x64 .f32) (v6 v8 : Vec Ideal S64x40 .f32) (v10 : Vec Ideal S1x40 .f32) :
    k1_pay1 (F := Ideal) v0 v3 v6 v8 v10 = logp v0 v3 v6 v8 (fun i => v10 (ix2 (0 : Fin 1) (i 0))) := by
  unfold k1_pay1
  simp only [shapeCast_self]
  refine (kernelLogSoftmax_eq (N := 2000) _ reduces_S2000x40_S2000 (.inl rfl) rfl rfl shapeCasts_S2000_S2000x1
    broadcasts_S2000x1_S2000x40).trans ?_
  funext i
  unfold logp
  exact congrArg (fun o => logSoftmaxRow o (i 1)) (funext fun k =>
    kernelLin_apply (N := 2000) v0 v3 v6 v8 v10 broadcasts_S1x40_S2000x40 (i 0) k)

end Cert.KernelIdeal.Payload

end
-- ==== Proof.KernelBlocks.lean ====
/-
  From blocks to arrays: what each region leaves in its output array.

  Each region runs its kernel at 50 grid points; point t reads rows 2000·t … 2000·t + 1999 of the two row-blocked inputs,
  the whole of the two weight matrices and of the bias, and writes back rows 2000·t … 2000·t + 1999 of the output.  A row
  of a layer depends only on the same row of its inputs, so what point t writes back is block t of the layer of the
  WHOLE arrays; the 50 blocks tile the 100000 rows, so the output array ends holding that layer: 'hidden' after the first
  region, 'logp' after the second, of the arrays as the region found them.
-/
import proofs.«150844_j59373627900056_1_alg».proof.Proof.Gen.KernelIdeal.Frame
import proofs.«150844_j59373627900056_1_alg».proof.Proof.KernelPayload

set_option maxRecDepth 16384

noncomputable section

namespace Cert.KernelIdeal.Blocks

open Cert.KernelIdeal Cert.KernelIdeal.Gen Idealize.ShloMosaic Idealize.ShloMosaic.TcCoe Idealize.ShloMosaic.ValueIdx Cert.Sage
open Idealize.SL.Sem
open Idealize.ShloMosaic.Pipeline (Dat Cfg Window)

/-- A row of a layer read through a block: if the block's rows are rows of the whole arrays, the weights and the bias
    are read whole, and the column is the same, the two values of 'lin' agree. -/
theorem lin_block {d : ℕ} {A X : Mat 100000 64} {Wl Wr : Mat 64 d} {b : Row d}
    {x0 x1 : Mat 2000 64} {x2 x4 : Mat 64 d} {x3 : Mat 1 d} {n : Fin 100000} {p : Fin 2000}
    (h0 : ∀ k : Fin 64, x0 (ix2 p k) = A (ix2 n k)) (h1 : ∀ k : Fin 64, x1 (ix2 p k) = X (ix2 n k))
    (h2 : ∀ (k : Fin 64) (q : Fin d), x2 (ix2 k q) = Wl (ix2 k q)) (h4 : ∀ (k : Fin 64) (q : Fin d), x4 (ix2 k q) = Wr (ix2 k q))
    (h3 : ∀ q : Fin d, x3 (ix2 (0 : Fin 1) q) = b (ix1 q)) (q : Fin d) :
    lin x0 x1 x2 x4 (fun j => x3 (ix2 (0 : Fin 1) (j 0))) p q = lin A X Wl Wr b n q := by
  unfold lin
  simp only [h0, h1, h2, h4]
  rw [show x3 (ix2 (0 : Fin 1) ((ix1 q : (⟨1, ![d]⟩ : Shape).Idx) 0)) = b (ix1 q) from h3 q]

theorem hz : (![0, 0] : Fin 2 → Nat) = fun _ => 0 := funext fun a => by fin_cases a <;> rfl

variable (V : (c : Dev nD) → (b : Ref sig .tc) → Buf (Elt Ideal) ((c : Thread nD τ).loc b))

/-! ## Region 0: the first layer -/

/-- What the kernel leaves in its output block, over blocks of the literal types: the layer of the blocks. -/
theorem out0_eq (x0 x1 : Vec Ideal S2000x64 .f32) (x2 : Vec Ideal S64x64 .f32) (x3 : Vec Ideal S1x64 .f32) (x4 : Vec Ideal S64x64 .f32) :
    out0_5 x0 x1 x2 x3 x4 = hidden x0 x1 x2 x4 (fun j => x3 (ix2 (0 : Fin 1) (j 0))) := by
  unfold out0_5
  rw [View.canon_unit_zero hz]
  simp only [View.ld_unit_zero (S := S2000x64) hz, View.ld_unit_zero (S := S64x64) hz, View.ld_unit_zero (S := S1x64) hz]
  exact Payload.pay0_eq x0 x1 x2 x4 x3

/-- The input windows' blocks at a point, at their literal types. -/
abbrev a0_0 (c : Dev nD) (t : Fin cfg0.N) : Vec Ideal S2000x64 .f32 := iblk0 V c 0 t
abbrev a0_1 (c : Dev nD) (t : Fin cfg0.N) : Vec Ideal S2000x64 .f32 := iblk0 V c 1 t
abbrev a0_2 (c : Dev nD) (t : Fin cfg0.N) : Vec Ideal S64x64 .f32 := iblk0 V c 2 t
abbrev a0_3 (c : Dev nD) (t : Fin cfg0.N) : Vec Ideal S1x64 .f32 := iblk0 V c 3 t
abbrev a0_4 (c : Dev nD) (t : Fin cfg0.N) : Vec Ideal S64x64 .f32 := iblk0 V c 4 t

/-- The bias as the region finds it: the one row of its one-row array. -/
abbrev bias0 (c : Dev nD) : Row 64 := fun j => V c main_v25 (ix2 (0 : Fin 1) (j 0))

/-- The printed index maps over the grid: the row-blocked windows sit at block t, the others at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! A block read at an entry is the array read at the entry's place in the array: row 2000·t + p for the row-blocked
    windows, the same entry for the windows that hold their whole array. -/

theorem a0_0_apply (c : Dev nD) (t : Fin cfg0.N) (p : Fin 2000) (k : Fin 64) (n : Fin 100000) (hn : n.val = t.val * 2000 + p.val) :
    a0_0 V c t (ix2 p k) = V c main_v24 (ix2 n k) := by
  obtain ⟨e00, e01, e10, e11, -⟩ := idx_facts0 t
  show V c main_v24 (((cfg0.win 0).blk t).view.emb (ix2 p k)) = _
  refine congrArg _ (funext fun a => Fin.ext ?_)
  match a with
  | ⟨0, _⟩ => show win0_0.index t (0 : Fin 2) * 2000 + 1 * p.val = n.val; omega
  | ⟨1, _⟩ => show win0_0.index t (1 : Fin 2) * 64 + 1 * k.val = k.val; omega

theorem a0_1_apply (c : Dev nD) (t : Fin cfg0.N) (p : Fin 2000) (k : Fin 64) (n : Fin 100000) (hn : n.val = t.val * 2000 + p.val) :
    a0_1 V c t (ix2 p k) = V c main_arg0 (ix2 n k) := by
  obtain ⟨e00, e01, e10, e11, -⟩ := idx_facts0 t
  show V c main_arg0 (((cfg0.win 1).blk t).view.emb (ix2 p k)) = _
  refine congrArg _ (funext fun a => Fin.ext ?_)
  match a with
  | ⟨0, _⟩ => show win0_1.index t (0 : Fin 2) * 2000 + 1 * p.val = n.val; omega
  | ⟨1, _⟩ => show win0_1.index t (1 : Fin 2) * 64 + 1 * k.val = k.val; omega

theorem a0_2_apply (c : Dev nD) (t : Fin cfg0.N) (k : Fin 64) (q : Fin 64) : a0_2 V c t (ix2 k q) = V c main_arg2 (ix2 k q) := by
  obtain ⟨-, -, -, -, e20, e21, -, -, e40, e41, -⟩ := idx_facts0 t
  show V c main_arg2 (((cfg0.win 2).blk t).view.emb (ix2 k q)) = _
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

theorem a0_4_apply (c : Dev nD) (t : Fin cfg0.N) (k : Fin 64) (q : Fin 64) : a0_4 V c t (ix2 k q) = V c main_arg4 (ix2 k q) := by
  obtain ⟨-, -, -, -, e20, e21, -, -, e40, e41, -⟩ := idx_facts0 t
  show V c main_arg4 (((cfg0.win 4).blk t).view.emb (ix2 k q)) = _
  refine congrArg _ (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

theorem a0_3_apply (c : Dev nD) (t : Fin cfg0.N) (q : Fin 64) : a0_3 V c t (ix2 (0 : Fin 1) q) = V c main_v25 (ix2 (0 : Fin 1) q) := by
  obtain ⟨-, -, -, -, -, -, e30, e31, -⟩ := idx_facts0 t
  show V c main_v25 (((cfg0.win 3).blk t).view.emb (ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * q.val = q.val; omega

/-- What point t writes back is block t of the layer of the arrays as the region finds them. -/
theorem flushed0_eq (c : Dev nD) (t : Fin cfg0.N) :
    (dat0 V c).flushed 5 t = ((cfg0.win 5).blk t).view.read (Elt Ideal)
      (hidden (V c main_v24) (V c main_arg0) (V c main_arg2) (V c main_arg4) (bias0 V c)) := by
  show (cfg0.win 5).cut (grid0.coords t) ((dat0 V c).after 5 t) = _
  rw [after0_5]
  show (cfg0.win 5).cut (grid0.coords t) (out0_5 (a0_0 V c t) (a0_1 V c t) (a0_2 V c t) (a0_3 V c t) (a0_4 V c t)) = _
  rw [out0_eq]
  obtain ⟨-, -, -, -, -, -, -, -, -, -, e50, e51⟩ := idx_facts0 t
  funext j
  obtain ⟨p, q, rfl⟩ : ∃ (p : Fin 2000) (q : Fin 64), j = ix2 p q := ⟨j 0, j 1, eq_ix2 j⟩
  show hidden (a0_0 V c t) (a0_1 V c t) (a0_2 V c t) (a0_4 V c t) (fun j => a0_3 V c t (ix2 (0 : Fin 1) (j 0))) (ix2 p q)
    = hidden (V c main_v24) (V c main_arg0) (V c main_arg2) (V c main_arg4) (bias0 V c) (((cfg0.win 5).blk t).view.emb (ix2 p q))
  have hi0 : ((((cfg0.win 5).blk t).view.emb (ix2 p q)) 0).val = t.val * 2000 + p.val := by
    show win0_5.index t (0 : Fin 2) * 2000 + 1 * p.val = _; omega
  have hi1 : ((((cfg0.win 5).blk t).view.emb (ix2 p q)) 1).val = q.val := by
    show win0_5.index t (1 : Fin 2) * 64 + 1 * q.val = _; omega
  generalize ((cfg0.win 5).blk t).view.emb (ix2 p q) = i at hi0 hi1
  obtain ⟨n, q', rfl⟩ : ∃ (n : Fin 100000) (q' : Fin 64), i = ix2 n q' := ⟨i 0, i 1, eq_ix2 i⟩
  have hq : q' = q := Fin.ext hi1
  subst hq
  show max (lin (a0_0 V c t) (a0_1 V c t) (a0_2 V c t) (a0_4 V c t) (fun j => a0_3 V c t (ix2 (0 : Fin 1) (j 0))) p q') 0
    = max (lin (V c main_v24) (V c main_arg0) (V c main_arg2) (V c main_arg4) (bias0 V c) n q') 0
  exact congrArg (fun x => max x 0) (lin_block (fun k => a0_0_apply V c t p k n hi0) (fun k => a0_1_apply V c t p k n hi0)
    (fun k q => a0_2_apply V c t k q) (fun k q => a0_4_apply V c t k q) (fun q => a0_3_apply V c t q) q')

/-- An index of the output array is in point t's block iff each coordinate is in the block's range on its axis. -/
theorem mem_blk0 (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v26).slice (win0_5.rect t)).set ↔ _
  rw [View.set_slice_whole, Rect.mem_set_unit]
  exact Iff.rfl

/-- Every row of the output is in the block of the point its number divided by 2000 names. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 2000 < cfg0.N := by rw [show cfg0.N = 50 from N_0]; omega
  refine ⟨⟨(i 0).val / 2000, hN⟩, flush0_5 _, ?_⟩
  obtain ⟨-, -, -, -, -, -, -, -, -, -, e50, e51⟩ := idx_facts0 ⟨(i 0).val / 2000, hN⟩
  rw [mem_blk0]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hN⟩ (1 : Fin 2) * 64 ≤ (i 1).val ∧ (i 1).val < win0_5.index ⟨(i 0).val / 2000, hN⟩ (1 : Fin 2) * 64 + 64
    rw [e51]; omega

/-- THE ARRAY after region 0: the layer of the arrays as the region found them. -/
theorem final0 (c : Dev nD) :
    (dat0 V c).arrAt 5 cfg0.N = hidden (V c main_v24) (V c main_arg0) (V c main_arg2) (V c main_arg4) (bias0 V c) :=
  (dat0 V c).arrAt_eq_of_cover 5 _ (fun t _ => flushed0_eq V c t) cover0

/-! ## Region 1: the second layer -/

/-- What the kernel leaves in its output block, over blocks of the literal types: the layer of the blocks. -/
theorem out1_eq (x0 x1 : Vec Ideal S2000x64 .f32) (x2 : Vec Ideal S64x40 .f32) (x3 : Vec Ideal S1x40 .f32) (x4 : Vec Ideal S64x40 .f32) :
    out1_5 x0 x1 x2 x3 x4 = logp x0 x1 x2 x4 (fun j => x3 (ix2 (0 : Fin 1) (j 0))) := by
  unfold out1_5
  rw [View.canon_unit_zero hz]
  simp only [View.ld_unit_zero (S := S2000x64) hz, View.ld_unit_zero (S := S64x40) hz, View.ld_unit_zero (S := S1x40) hz]
  exact Payload.pay1_eq x0 x1 x2 x4 x3

/-- The input windows' blocks at a point, at their literal types. -/
abbrev a1_0 (c : Dev nD) (t : Fin cfg1.N) : Vec Ideal S2000x64 .f32 := iblk1 V c 0 t
abbrev a1_1 (c : Dev nD) (t : Fin cfg1.N) : Vec Ideal S2000x64 .f32 := iblk1 V c 1 t
abbrev a1_2 (c : Dev nD) (t : Fin cfg1.N) : Vec Ideal S64x40 .f32 := iblk1 V c 2 t
abbrev a1_3 (c : Dev nD) (t : Fin cfg1.N) : Vec Ideal S1x40 .f32 := iblk1 V c 3 t
abbrev a1_4 (c : Dev nD) (t : Fin cfg1.N) : Vec Ideal S64x40 .f32 := iblk1 V c 4 t

/-- The bias as the region finds it: the one row of its one-row array. -/
abbrev bias1 (c : Dev nD) : Row 40 := fun j => V c main_v40 (ix2 (0 : Fin 1) (j 0))

/-- The printed index maps over the grid: the row-blocked windows sit at block t, the others at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! A block read at an entry is the array read at the entry's place in the array: row 2000·t + p for the row-blocked
    windows, the same entry for the windows that hold their whole array. -/

theorem a1_0_apply (c : Dev nD) (t : Fin cfg1.N) (p : Fin 2000) (k : Fin 64) (n : Fin 100000) (hn : n.val = t.val * 2000 + p.val) :
    a1_0 V c t (ix2 p k) = V c main_v39 (ix2 n k) := by
  obtain ⟨e00, e01, e10, e11, -⟩ := idx_facts1 t
  show V c main_v39 (((cfg1.win 0).blk t).view.emb (ix2 p k)) = _
  refine congrArg _ (funext fun a => Fin.ext ?_)
  match a with
  | ⟨0, _⟩ => show win1_0.index t (0 : Fin 2) * 2000 + 1 * p.val = n.val; omega
  | ⟨1, _⟩ => show win1_0.index t (1 : Fin 2) * 64 + 1 * k.val = k.val; omega

theorem a1_1_apply (c : Dev nD) (t : Fin cfg1.N) (p : Fin 2000) (k : Fin 64) (n : Fin 100000) (hn : n.val = t.val * 2000 + p.val) :
    a1_1 V c t (ix2 p k) = V c main_v26 (ix2 n k) := by
  obtain ⟨e00, e01, e10, e11, -⟩ := idx_facts1 t
  show V c main_v26 (((cfg1.win 1).blk t).view.emb (ix2 p k)) = _
  refine congrArg _ (funext fun a => Fin.ext ?_)
  match a with
  | ⟨0, _⟩ => show win1_1.index t (0 : Fin 2) * 2000 + 1 * p.val = n.val; omega
  | ⟨1, _⟩ => show win1_1.index t (1 : Fin 2) * 64 + 1 * k.val = k.val; omega

theorem a1_2_apply (c : Dev nD) (t : Fin cfg1.N) (k : Fin 64) (q : Fin 40) : a1_2 V c t (ix2 k q) = V c main_arg5 (ix2 k q) := by
  obtain ⟨-, -, -, -, e20, e21, -, -, e40, e41, -⟩ := idx_facts1 t
  show V c main_arg5 (((cfg1.win 2).blk t).view.emb (ix2 k q)) = _
  refine congrArg _ (funext fun a => Fin.ext ?_)
  match a with
  | ⟨0, _⟩ => show win1_2.index t (0 : Fin 2) * 64 + 1 * k.val = k.val; omega
  | ⟨1, _⟩ => show win1_2.index t (1 : Fin 2) * 40 + 1 * q.val = q.val; omega

theorem a1_4_apply (c : Dev nD) (t : Fin cfg1.N) (k : Fin 64) (q : Fin 40) : a1_4 V c t (ix2 k q) = V c main_arg7 (ix2 k q) := by
  obtain ⟨-, -, -, -, e20, e21, -, -, e40, e41, -⟩ := idx_facts1 t
  show V c main_arg7 (((cfg1.win 4).blk t).view.emb (ix2 k q)) = _
  refine congrArg _ (funext fun a => Fin.ext ?_)
  match a with
  | ⟨0, _⟩ => show win1_4.index t (0 : Fin 2) * 64 + 1 * k.val = k.val; omega
  | ⟨1, _⟩ => show win1_4.index t (1 : Fin 2) * 40 + 1 * q.val = q.val; omega

theorem a1_3_apply (c : Dev nD) (t : Fin cfg1.N) (q : Fin 40) : a1_3 V c t (ix2 (0 : Fin 1) q) = V c main_v40 (ix2 (0 : Fin 1) q) := by
  obtain ⟨-, -, -, -, -, -, e30, e31, -⟩ := idx_facts1 t
  show V c main_v40 (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 40 + 1 * q.val = q.val; omega

/-- What point t writes back is block t of the layer of the arrays as the region finds them. -/
theorem flushed1_eq (c : Dev nD) (t : Fin cfg1.N) :
    (dat1 V c).flushed 5 t = ((cfg1.win 5).blk t).view.read (Elt Ideal)
      (logp (V c main_v39) (V c main_v26) (V c main_arg5) (V c main_arg7) (bias1 V c)) := by
  show (cfg1.win 5).cut (grid1.coords t) ((dat1 V c).after 5 t) = _
  rw [after1_5]
  show (cfg1.win 5).cut (grid1.coords t) (out1_5 (a1_0 V c t) (a1_1 V c t) (a1_2 V c t) (a1_3 V c t) (a1_4 V c t)) = _
  rw [out1_eq]
  obtain ⟨-, -, -, -, -, -, -, -, -, -, e50, e51⟩ := idx_facts1 t
  funext j
  obtain ⟨p, q, rfl⟩ : ∃ (p : Fin 2000) (q : Fin 40), j = ix2 p q := ⟨j 0, j 1, eq_ix2 j⟩
  show logp (a1_0 V c t) (a1_1 V c t) (a1_2 V c t) (a1_4 V c t) (fun j => a1_3 V c t (ix2 (0 : Fin 1) (j 0))) (ix2 p q)
    = logp (V c main_v39) (V c main_v26) (V c main_arg5) (V c main_arg7) (bias1 V c) (((cfg1.win 5).blk t).view.emb (ix2 p q))
  have hi0 : ((((cfg1.win 5).blk t).view.emb (ix2 p q)) 0).val = t.val * 2000 + p.val := by
    show win1_5.index t (0 : Fin 2) * 2000 + 1 * p.val = _; omega
  have hi1 : ((((cfg1.win 5).blk t).view.emb (ix2 p q)) 1).val = q.val := by
    show win1_5.index t (1 : Fin 2) * 40 + 1 * q.val = _; omega
  generalize ((cfg1.win 5).blk t).view.emb (ix2 p q) = i at hi0 hi1
  obtain ⟨n, q', rfl⟩ : ∃ (n : Fin 100000) (q' : Fin 40), i = ix2 n q' := ⟨i 0, i 1, eq_ix2 i⟩
  have hq : q' = q := Fin.ext hi1
  subst hq
  show logSoftmaxRow (lin (a1_0 V c t) (a1_1 V c t) (a1_2 V c t) (a1_4 V c t) (fun j => a1_3 V c t (ix2 (0 : Fin 1) (j 0))) p) q'
    = logSoftmaxRow (lin (V c main_v39) (V c main_v26) (V c main_arg5) (V c main_arg7) (bias1 V c) n) q'
  exact congrArg (fun o => logSoftmaxRow o q') (funext fun k' => lin_block (fun k => a1_0_apply V c t p k n hi0)
    (fun k => a1_1_apply V c t p k n hi0) (fun k q => a1_2_apply V c t k q) (fun k q => a1_4_apply V c t k q)
    (fun q => a1_3_apply V c t q) k')

/-- An index of the output array is in point t's block iff each coordinate is in the block's range on its axis. -/
theorem mem_blk1 (t : Fin cfg1.N) (i : S100000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v41).slice (win1_5.rect t)).set ↔ _
  rw [View.set_slice_whole, Rect.mem_set_unit]
  exact Iff.rfl

/-- Every row of the output is in the block of the point its number divided by 2000 names. -/
theorem cover1 (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  have hN : (i 0).val / 2000 < cfg1.N := by rw [show cfg1.N = 50 from N_1]; omega
  refine ⟨⟨(i 0).val / 2000, hN⟩, flush1_5 _, ?_⟩
  obtain ⟨-, -, -, -, -, -, -, -, -, -, e50, e51⟩ := idx_facts1 ⟨(i 0).val / 2000, hN⟩
  rw [mem_blk1]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hN⟩ (1 : Fin 2) * 40 ≤ (i 1).val ∧ (i 1).val < win1_5.index ⟨(i 0).val / 2000, hN⟩ (1 : Fin 2) * 40 + 40
    rw [e51]; omega

/-- THE ARRAY after region 1: the layer of the arrays as the region found them. -/
theorem final1 (c : Dev nD) :
    (dat1 V c).arrAt 5 cfg1.N = logp (V c main_v39) (V c main_v26) (V c main_arg5) (V c main_arg7) (bias1 V c) :=
  (dat1 V c).arrAt_eq_of_cover 5 _ (fun t _ => flushed1_eq V c t) cover1

end Cert.KernelIdeal.Blocks

end
-- ==== Proof.KernelValue.lean ====
/-
  The kernel program's result as one function of its arguments.

  Reading the buffers back through @main: the first host stretch leaves the edge list's two rows, the reciprocal of the
  clamped in-degree and the first neighbourhood mean; region 0 leaves 'hidden' of that mean and the node features; the
  second host stretch leaves the mean of that hidden array, with the same rows and the same reciprocal; region 1 leaves
  'logp' of that mean and the hidden array.  The biases reach the kernels as one-row arrays whose one row is the bias.
-/
import proofs.«150844_j59373627900056_1_alg».proof.Proof.Gen.KernelIdeal.Frame
import proofs.«150844_j59373627900056_1_alg».proof.Proof.KernelGlue
import proofs.«150844_j59373627900056_1_alg».proof.Proof.KernelBlocks
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem Cert.Sage

/-! ## The first host stretch, at any float values -/

section AnyValues
variable {F : FTy → Type} [FloatOps F]
variable (m : (ℓ : Loc nD τ sig) → Buf (Elt F) ℓ) (ρ : Dev nD → PrngReg)

set_option maxHeartbeats 1000000 in
theorem W1_v1 (c : Dev nD) : W1 m ρ c (Proc.devRef .tc main_v1) = Glue.srcs (m ((c : Thread nD τ).loc main_arg1)) := by
  show StableHlo.after hostOps0 (W0 m ρ c) (Proc.devRef .tc main_v1) = _
  after_results_simp
  rfl

set_option maxHeartbeats 1000000 in
theorem W1_v3 (c : Dev nD) : W1 m ρ c (Proc.devRef .tc main_v3) = Glue.dsts (m ((c : Thread nD τ).loc main_arg1)) := by
  show StableHlo.after hostOps0 (W0 m ρ c) (Proc.devRef .tc main_v3) = _
  after_results_simp
  rfl

set_option maxHeartbeats 1000000 in
theorem W1_v11 (c : Dev nD) :
    W1 m ρ c (Proc.devRef .tc main_v11) = Glue.invDeg (Glue.dsts (m ((c : Thread nD τ).loc main_arg1))) := by
  show StableHlo.after hostOps0 (W0 m ρ c) (Proc.devRef .tc main_v11) = _
  after_results_simp
  rfl

set_option maxHeartbeats 1000000 in
theorem W1_v24 (c : Dev nD) :
    W1 m ρ c (Proc.devRef .tc main_v24)
      = Glue.mean (Glue.srcs (m ((c : Thread nD τ).loc main_arg1))) (Glue.dsts (m ((c : Thread nD τ).loc main_arg1)))
          (Glue.invDeg (Glue.dsts (m ((c : Thread nD τ).loc main_arg1)))) (m ((c : Thread nD τ).loc main_arg0)) := by
  show StableHlo.after hostOps0 (W0 m ρ c) (Proc.devRef .tc main_v24) = _
  after_results_simp
  rfl

set_option maxHeartbeats 1000000 in
theorem W1_v25 (c : Dev nD) :
    W1 m ρ c (Proc.devRef .tc main_v25) = shapeCast S1x64 (m ((c : Thread nD τ).loc main_arg3)) Facts₀.shapeCasts_S64_S1x64 := by
  show StableHlo.after hostOps0 (W0 m ρ c) (Proc.devRef .tc main_v25) = _
  after_results_simp
  rfl

set_option maxHeartbeats 1000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp

set_option maxHeartbeats 1000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp

set_option maxHeartbeats 1000000 in
theorem W1_arg4 (c : Dev nD) : W1 m ρ c (Proc.devRef .tc main_arg4) = m ((c : Thread nD τ).loc main_arg4) := by
  show StableHlo.after hostOps0 (W0 m ρ c) (Proc.devRef .tc main_arg4) = _
  after_results_simp

set_option maxHeartbeats 1000000 in
theorem W1_arg5 (c : Dev nD) : W1 m ρ c (Proc.devRef .tc main_arg5) = m ((c : Thread nD τ).loc main_arg5) := by
  show StableHlo.after hostOps0 (W0 m ρ c) (Proc.devRef .tc main_arg5) = _
  after_results_simp

set_option maxHeartbeats 1000000 in
theorem W1_arg6 (c : Dev nD) : W1 m ρ c (Proc.devRef .tc main_arg6) = m ((c : Thread nD τ).loc main_arg6) := by
  show StableHlo.after hostOps0 (W0 m ρ c) (Proc.devRef .tc main_arg6) = _
  after_results_simp

set_option maxHeartbeats 1000000 in
theorem W1_arg7 (c : Dev nD) : W1 m ρ c (Proc.devRef .tc main_arg7) = m ((c : Thread nD τ).loc main_arg7) := by
  show StableHlo.after hostOps0 (W0 m ρ c) (Proc.devRef .tc main_arg7) = _
  after_results_simp

/-! ## The second host stretch, from region 0's exit contents -/

set_option maxHeartbeats 1000000 in
theorem W3_v39 (c : Dev nD) :
    W3 m ρ c (Proc.devRef .tc main_v39)
      = Glue.mean (W2 m ρ c (Proc.devRef .tc main_v1)) (W2 m ρ c (Proc.devRef .tc main_v3))
          (W2 m ρ c (Proc.devRef .tc main_v11)) (W2 m ρ c (Proc.devRef .tc main_v26)) := by
  show StableHlo.after hostOps1 (W2 m ρ c) (Proc.devRef .tc main_v39) = _
  after_results_simp
  rfl

set_option maxHeartbeats 1000000 in
theorem W3_v40 (c : Dev nD) :
    W3 m ρ c (Proc.devRef .tc main_v40) = shapeCast S1x40 (W2 m ρ c (Proc.devRef .tc main_arg6)) Facts₀.shapeCasts_S40_S1x40 := by
  show StableHlo.after hostOps1 (W2 m ρ c) (Proc.devRef .tc main_v40) = _
  after_results_simp
  rfl

set_option maxHeartbeats 1000000 in
theorem W3_v26 (c : Dev nD) : W3 m ρ c (Proc.devRef .tc main_v26) = W2 m ρ c (Proc.devRef .tc main_v26) := by
  show StableHlo.after hostOps1 (W2 m ρ c) (Proc.devRef .tc main_v26) = _
  after_results_simp

set_option maxHeartbeats 1000000 in
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp

set_option maxHeartbeats 1000000 in
theorem W3_arg7 (c : Dev nD) : W3 m ρ c (Proc.devRef .tc main_arg7) = W2 m ρ c (Proc.devRef .tc main_arg7) := by
  show StableHlo.after hostOps1 (W2 m ρ c) (Proc.devRef .tc main_arg7) = _
  after_results_simp

end AnyValues

/-! ## The result, at the extended reals -/

section AtIdeal
variable (m : (ℓ : Loc nD τ sig) → Buf (Elt Ideal) ℓ) (ρ : Dev nD → PrngReg)

/-- A bias cast to a one-row array and read along its one row is the bias. -/
theorem row_of_cast {d : ℕ} (b : Row d) (h : (⟨1, ![d]⟩ : Shape).ShapeCasts ⟨2, ![1, d]⟩) :
    (fun j : (⟨1, ![d]⟩ : Shape).Idx => shapeCast ⟨2, ![1, d]⟩ b h (ix2 (0 : Fin 1) (j 0))) = b := by
  funext j
  obtain ⟨q, rfl⟩ : ∃ q : Fin d, j = ix1 q := ⟨j 0, eq_ix1 j⟩
  exact shapeCast_a_1a_apply b h (0 : Fin 1) q

/-- The first layer's output as the kernel program computes it, of the launch contents. -/
def hiddenK (c : Dev nD) : Mat 100000 64 :=
  hidden (Glue.mean (Glue.srcs (m ((c : Thread nD τ).loc main_arg1))) (Glue.dsts (m ((c : Thread nD τ).loc main_arg1)))
      (Glue.invDeg (Glue.dsts (m ((c : Thread nD τ).loc main_arg1)))) (m ((c : Thread nD τ).loc main_arg0)))
    (m ((c : Thread nD τ).loc main_arg0)) (m ((c : Thread nD τ).loc main_arg2)) (m ((c : Thread nD τ).loc main_arg4))
    (m ((c : Thread nD τ).loc main_arg3))

/-- Region 0 leaves the first layer in its output array. -/
theorem W2_v26 (c : Dev nD) : W2 m ρ c (Proc.devRef .tc main_v26) = hiddenK m c := by
  refine (W2_arr m ρ c 5).trans ((Blocks.final0 (V1 m ρ) c).trans ?_)
  unfold hiddenK
  have hb : Blocks.bias0 (V1 m ρ) c = m ((c : Thread nD τ).loc main_arg3) := by
    unfold Blocks.bias0
    show (fun j : (⟨1, ![64]⟩ : Shape).Idx => W1 m ρ c (Proc.devRef .tc main_v25) (ix2 (0 : Fin 1) (j 0))) = _
    rw [W1_v25]
    exact row_of_cast _ _
  rw [hb]
  show hidden (W1 m ρ c (Proc.devRef .tc main_v24)) (W1 m ρ c (Proc.devRef .tc main_arg0)) (W1 m ρ c (Proc.devRef .tc main_arg2))
    (W1 m ρ c (Proc.devRef .tc main_arg4)) _ = _
  rw [W1_v24, W1_arg0, W1_arg2, W1_arg4]

/-- The kernel program's result: the second layer of the mean of the first layer's output and that output. -/
theorem result_eq (c : Dev nD) :
    W4 m ρ c (Proc.devRef .tc main_v41)
      = logp (Glue.mean (Glue.srcs (m ((c : Thread nD τ).loc main_arg1))) (Glue.dsts (m ((c : Thread nD τ).loc main_arg1)))
            (Glue.invDeg (Glue.dsts (m ((c : Thread nD τ).loc main_arg1)))) (hiddenK m c))
          (hiddenK m c) (m ((c : Thread nD τ).loc main_arg5)) (m ((c : Thread nD τ).loc main_arg7))
          (m ((c : Thread nD τ).loc main_arg6)) := by
  refine (W4_arr m ρ c 5).trans ((Blocks.final1 (V3 m ρ) c).trans ?_)
  have h1 : W2 m ρ c (Proc.devRef .tc main_v1) = Glue.srcs (m ((c : Thread nD τ).loc main_arg1)) :=
    (W2_of_ne m ρ c main_v1 (by decide)).trans (W1_v1 m ρ c)
  have h3 : W2 m ρ c (Proc.devRef .tc main_v3) = Glue.dsts (m ((c : Thread nD τ).loc main_arg1)) :=
    (W2_of_ne m ρ c main_v3 (by decide)).trans (W1_v3 m ρ c)
  have h11 : W2 m ρ c (Proc.devRef .tc main_v11) = Glue.invDeg (Glue.dsts (m ((c : Thread nD τ).loc main_arg1))) :=
    (W2_of_ne m ρ c main_v11 (by decide)).trans (W1_v11 m ρ c)
  have h5 : W2 m ρ c (Proc.devRef .tc main_arg5) = m ((c : Thread nD τ).loc main_arg5) :=
    (W2_of_ne m ρ c main_arg5 (by decide)).trans (W1_arg5 m ρ c)
  have h6 : W2 m ρ c (Proc.devRef .tc main_arg6) = m ((c : Thread nD τ).loc main_arg6) :=
    (W2_of_ne m ρ c main_arg6 (by decide)).trans (W1_arg6 m ρ c)
  have h7 : W2 m ρ c (Proc.devRef .tc main_arg7) = m ((c : Thread nD τ).loc main_arg7) :=
    (W2_of_ne m ρ c main_arg7 (by decide)).trans (W1_arg7 m ρ c)
  have hb : Blocks.bias1 (V3 m ρ) c = m ((c : Thread nD τ).loc main_arg6) := by
    unfold Blocks.bias1
    show (fun j : (⟨1, ![40]⟩ : Shape).Idx => W3 m ρ c (Proc.devRef .tc main_v40) (ix2 (0 : Fin 1) (j 0))) = _
    rw [W3_v40, h6]
    exact row_of_cast _ _
  rw [hb]
  show logp (W3 m ρ c (Proc.devRef .tc main_v39)) (W3 m ρ c (Proc.devRef .tc main_v26)) (W3 m ρ c (Proc.devRef .tc main_arg5))
    (W3 m ρ c (Proc.devRef .tc main_arg7)) _ = _
  rw [W3_v39, W3_v26, W3_arg5, W3_arg7, h1, h3, h11, h5, h7, W2_v26]

end AtIdeal

end Cert.KernelIdeal.Result

end
-- ==== Proof.RefGlue.lean ====
/-
  The host side of the reference program, named: the two rows of the edge list as vectors of node numbers, the sum of the
  neighbours' rows into each node ('sums': a gather of the source rows scattered-and-added at the destination rows), the
  clamped in-degree ('degMax': the count of incoming edges, at least one), and a vector of 100000 entries laid along the
  64 columns ('cols').  The reference divides the sums by the clamped degree.
-/
import proofs.«150844_j59373627900056_1_alg».proof.Proof.Gen.ReferenceIdeal

noncomputable section

namespace Cert.ReferenceIdeal.Glue

open Cert.ReferenceIdeal Cert.ReferenceIdeal.Facts₀ Idealize.ShloMosaic

variable {F : FTy → Type} [FloatOps F]

/-- The source nodes of the edges: row 0 of the edge list. -/
def srcs (e : (⟨S2x1250000, .i32⟩ : BufTy).Contents (Elt F)) : (⟨S1250000, .i32⟩ : BufTy).Contents (Elt F) :=
  shapeCast S1250000 (extractStridedSlice S1x1250000 ![0, 0] e slices_S2x1250000_S1x1250000_0_0) shapeCasts_S1x1250000_S1250000

/-- The destination nodes of the edges: row 1 of the edge list. -/
def dsts (e : (⟨S2x1250000, .i32⟩ : BufTy).Contents (Elt F)) : (⟨S1250000, .i32⟩ : BufTy).Contents (Elt F) :=
  shapeCast S1250000 (extractStridedSlice S1x1250000 ![1, 0] e slices_S2x1250000_S1x1250000_1_0) shapeCasts_S1x1250000_S1250000

/-- The all-ones vector over the nodes. -/
def ones : (⟨S100000, .f32⟩ : BufTy).Contents (Elt F) :=
  broadcastInDim S100000 ![] bcast_S_S100000 (constant S_ .f32 0x3F800000#32)

/-- The number of edges into each node, at least one. -/
def degMax (d : (⟨S1250000, .i32⟩ : BufTy).Contents (Elt F)) : (⟨S100000, .f32⟩ : BufTy).Contents (Elt F) :=
  maximumf
    (Host.scatterAdd scatter_S100000_S1250000x1_S1250000_n_0_0_1
      (broadcastInDim S100000 ![] bcast_S_S100000 (constant S_ .f32 0x00000000#32))
      (broadcastInDim S1250000x1 ![0] bcast_S1250000_S1250000x1_0 d)
      (broadcastInDim S1250000 ![] bcast_S_S1250000 (constant S_ .f32 0x3F800000#32)))
    (ones (F := F))

/-- For each node, the sum over its incoming edges of the source node's row of H. -/
def sums (s d : (⟨S1250000, .i32⟩ : BufTy).Contents (Elt F)) (H : (⟨S100000x64, .f32⟩ : BufTy).Contents (Elt F)) :
    (⟨S100000x64, .f32⟩ : BufTy).Contents (Elt F) :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 d)
    (Host.gather gather_S100000x64_S1250000x1_S1250000x64_1_0_n_n_0_1_164 H
      (broadcastInDim S1250000x1 ![0] bcast_S1250000_S1250000x1_0
        (select (cmpi .slt s (broadcastInDim S1250000 ![] bcast_S_S1250000 (constantI S_ 32 0#32)))
          (addi s (broadcastInDim S1250000 ![] bcast_S_S1250000 (constantI S_ 32 100000#32))) s)))

/-- A value per node laid along the 64 columns. -/
def cols (w : (⟨S100000, .f32⟩ : BufTy).Contents (Elt F)) : (⟨S100000x64, .f32⟩ : BufTy).Contents (Elt F) :=
  broadcastInDim S100000x64 ![0, 1] bcast_S100000x1_S100000x64_0_1 (broadcastInDim S100000x1 ![0] bcast_S100000_S100000x1_0 w)

/-- The neighbourhood mean as the reference forms it: the sums divided by the clamped in-degree. -/
def mean (s d : (⟨S1250000, .i32⟩ : BufTy).Contents (Elt F)) (H : (⟨S100000x64, .f32⟩ : BufTy).Contents (Elt F)) :
    (⟨S100000x64, .f32⟩ : BufTy).Contents (Elt F) :=
  Host.divf (sums s d H) (cols (degMax d))

end Cert.ReferenceIdeal.Glue

end
-- ==== Proof.RefValue.lean ====
/-
  The reference program's result as one function of its arguments.

  The reference's fold of host operations, read back at the result buffer, is: the log-softmax along the rows of the
  second layer's linear part, of the mean of the first layer's output and that output; the first layer's output is the
  clamp at zero of the first linear part, of the mean of the node features and the features.  The functions jax
  outlined (the clamp, the log-softmax) stand inlined.  At the extended reals the two layers are 'hidden' and 'logp' of Spec.lean.
-/
import proofs.«150844_j59373627900056_1_alg».proof.Proof.RefRun
import proofs.«150844_j59373627900056_1_alg».proof.Proof.RefGlue
import proofs.«150844_j59373627900056_1_alg».proof.Proof.Layers
import Idealize.ShloMosaic.Lib.Pipeline.Frame

set_option maxRecDepth 16384

noncomputable section

namespace Cert.ReferenceIdeal.Result

open Cert.ReferenceIdeal Cert.ReferenceIdeal.Gen Cert.ReferenceIdeal.ValueP
open Idealize.ShloMosaic Idealize.ShloMosaic.TcCoe Idealize.ShloMosaic.StableHlo Idealize.ShloMosaic.ValueIdx
open Idealize.SL.Sem Cert.Sage

section AnyValues
variable {F : FTy → Type} [FloatOps F]

/-- The first layer as the host spells it. -/
def hiddenTerm (A X : (⟨S100000x64, .f32⟩ : BufTy).Contents (Elt F)) (Wl Wr : (⟨S64x64, .f32⟩ : BufTy).Contents (Elt F))
    (b : (⟨S64, .f32⟩ : BufTy).Contents (Elt F)) : (⟨S100000x64, .f32⟩ : BufTy).Contents (Elt F) :=
  maximumf
    (addf (addf (Host.dotGeneral dot_S100000x64_S64x64_S100000x64_1_0_0_1_n_n none A Wl)
        (broadcastInDim S100000x64 ![0, 1] bcast_S1x64_S100000x64_0_1 (broadcastInDim S1x64 ![1] bcast_S64_S1x64_1 b)))
      (Host.dotGeneral dot_S100000x64_S64x64_S100000x64_1_0_0_1_n_n none X Wr))
    (broadcastInDim S100000x64 ![] bcast_S_S100000x64 (constant S_ .f32 0x00000000#32))

/-- The second layer's linear part as the host spells it. -/
def logitsTerm (A X : (⟨S100000x64, .f32⟩ : BufTy).Contents (Elt F)) (Wl Wr : (⟨S64x40, .f32⟩ : BufTy).Contents (Elt F))
    (b : (⟨S40, .f32⟩ : BufTy).Contents (Elt F)) : (⟨S100000x40, .f32⟩ : BufTy).Contents (Elt F) :=
  addf (addf (Host.dotGeneral dot_S100000x64_S64x40_S100000x40_1_0_0_1_n_n none A Wl)
      (broadcastInDim S100000x40 ![0, 1] bcast_S1x40_S100000x40_0_1 (broadcastInDim S1x40 ![1] bcast_S40_S1x40_1 b)))
    (Host.dotGeneral dot_S100000x64_S64x40_S100000x40_1_0_0_1_n_n none X Wr)

/-- The row maxima as the host takes them: one more maximum with minus infinity over the reduction's. -/
def rowMaxTerm (o : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf o (constant S_ .f32 0xFF800000#32) reducesTo_S100000x40_S100000_d1 h_S_)

/-- The entries less their row's maximum. -/
def shiftedTerm (o : (⟨S100000x40, .f32⟩ : BufTy).Contents (Elt F)) : (⟨S100000x40, .f32⟩ : BufTy).Contents (Elt F) :=
  subf o (broadcastInDim S100000x40 ![0, 1] bcast_S100000x1_S100000x40_0_1
    (broadcastInDim S100000x1 ![0] bcast_S100000_S100000x1_0 (rowMaxTerm o)))

/-- The log-softmax along the rows as the host spells it. -/
def logSoftmaxTerm (o : (⟨S100000x40, .f32⟩ : BufTy).Contents (Elt F)) : (⟨S100000x40, .f32⟩ : BufTy).Contents (Elt F) :=
  subf (shiftedTerm o) (broadcastInDim S100000x40 ![0, 1] bcast_S100000x1_S100000x40_0_1
    (Host.log (broadcastInDim S100000x1 ![0] bcast_S100000_S100000x1_0
      (Host.reduceAdd (Host.exp (shiftedTerm o)) (constant S_ .f32 0x00000000#32) reducesTo_S100000x40_S100000_d1 h_S_))))

/-! ## The fold, read in three stretches

The fold of the 84 operations is the fold of the last 15 (the log-softmax) over the fold of the middle 31 (the second
neighbourhood mean and the second layer's linear part) over the fold of the first 38 (the edge rows, the first mean and
the first layer). Each stretch is read at the buffers the next one reads: the first at the first layer's output, the
edge rows and the second layer's parameters; the second at the linear part; the third at the result. -/

/-- The fold over the whole list is the fold over the third stretch of the fold over the second of the fold over the first. -/
theorem after_split (V : Valuation τ sig (Elt F)) :
    after (ops (F := F)) V = after opsC (after opsB (after opsA V)) := by
  conv_lhs => rw [ops_split]
  rw [StableHlo.after_append, StableHlo.after_append]

set_option maxHeartbeats 4000000 in
/-- The third stretch: the log-softmax of the second layer's linear part. -/
theorem stageC (U : Valuation τ sig (Elt F)) :
    after (opsC (F := F)) U (Proc.devRef .tc main_v55) = logSoftmaxTerm (U (Proc.devRef .tc main_v54)) := by
  unfold logSoftmaxTerm shiftedTerm rowMaxTerm
  after_results_simp
  simp only [TRef.ofBuf, TRef.toBuf, cast_eq]

set_option maxHeartbeats 4000000 in
/-- The second stretch: the mean of the first layer's output, and the second layer's linear part. -/
theorem stageB (U : Valuation τ sig (Elt F)) :
    after (opsB (F := F)) U (Proc.devRef .tc main_v54)
      = logitsTerm (Glue.mean (U (Proc.devRef .tc main_v1)) (U (Proc.devRef .tc main_v3)) (U (Proc.devRef .tc main_v29)))
          (U (Proc.devRef .tc main_v29)) (U (Proc.devRef .tc main_arg5)) (U (Proc.devRef .tc main_arg7))
          (U (Proc.devRef .tc main_arg6)) := by
  after_results_simp
  rfl

variable (m : (ℓ : Loc nD τ sig) → Buf (Elt F) ℓ)

/-- The first layer's output as the reference computes it, of the launch contents. -/
def hiddenR (c : Dev nD) : (⟨S100000x64, .f32⟩ : BufTy).Contents (Elt F) :=
  hiddenTerm (Glue.mean (Glue.srcs (m ((c.tc : Thread nD τ).loc main_arg1))) (Glue.dsts (m ((c.tc : Thread nD τ).loc main_arg1)))
      (m ((c.tc : Thread nD τ).loc main_arg0)))
    (m ((c.tc : Thread nD τ).loc main_arg0)) (m ((c.tc : Thread nD τ).loc main_arg2)) (m ((c.tc : Thread nD τ).loc main_arg4))
    (m ((c.tc : Thread nD τ).loc main_arg3))

set_option maxHeartbeats 4000000 in
/-- The first stretch at the first layer's output. -/
theorem stageA_v29 (c : Dev nD) :
    after (opsA (F := F)) (launchContents m c) (Proc.devRef .tc main_v29) = hiddenR m c := by
  after_results_simp
  rfl

set_option maxHeartbeats 4000000 in
theorem stageA_v1 (c : Dev nD) :
    after (opsA (F := F)) (launchContents m c) (Proc.devRef .tc main_v1) = Glue.srcs (m ((c.tc : Thread nD τ).loc main_arg1)) := by
  after_results_simp
  rfl

set_option maxHeartbeats 4000000 in
theorem stageA_v3 (c : Dev nD) :
    after (opsA (F := F)) (launchContents m c) (Proc.devRef .tc main_v3) = Glue.dsts (m ((c.tc : Thread nD τ).loc main_arg1)) := by
  after_results_simp
  rfl

set_option maxHeartbeats 4000000 in
theorem stageA_arg5 (c : Dev nD) :
    after (opsA (F := F)) (launchContents m c) (Proc.devRef .tc main_arg5) = m ((c.tc : Thread nD τ).loc main_arg5) := by
  after_results_simp

set_option maxHeartbeats 4000000 in
theorem stageA_arg6 (c : Dev nD) :
    after (opsA (F := F)) (launchContents m c) (Proc.devRef .tc main_arg6) = m ((c.tc : Thread nD τ).loc main_arg6) := by
  after_results_simp

set_option maxHeartbeats 4000000 in
theorem stageA_arg7 (c : Dev nD) :
    after (opsA (F := F)) (launchContents m c) (Proc.devRef .tc main_arg7) = m ((c.tc : Thread nD τ).loc main_arg7) := by
  after_results_simp

/-- The fold of the reference's operations at the result buffer. -/
theorem result_term (c : Dev nD) :
    after (ops (F := F)) (launchContents m c) (Proc.devRef .tc main_v55)
      = logSoftmaxTerm (logitsTerm
          (Glue.mean (Glue.srcs (m ((c.tc : Thread nD τ).loc main_arg1))) (Glue.dsts (m ((c.tc : Thread nD τ).loc main_arg1)))
            (hiddenR m c))
          (hiddenR m c) (m ((c.tc : Thread nD τ).loc main_arg5)) (m ((c.tc : Thread nD τ).loc main_arg7))
          (m ((c.tc : Thread nD τ).loc main_arg6))) := by
  rw [after_split, stageC, stageB, stageA_v29, stageA_v1, stageA_v3, stageA_arg5, stageA_arg6, stageA_arg7]

end AnyValues

end Cert.ReferenceIdeal.Result

end
-- ==== Proof.Bridge.lean ====
/-
  The two programs compute one function.

  Host side: the kernel program's edge rows, neighbour sums and clamped in-degree are the reference's, operation for
  operation.  The kernel program scales the sums by 1 / max(deg, 1) where the reference divides them by max(deg, 1); at
  every node and column these agree on the extended reals, because max(deg, 1) ≥ 1 is not zero and the literal 1.0 is
  the number one.  So the two neighbourhood means are one array, whatever array they average.

  Layers: the reference's host spelling of each layer is the layer of Spec.lean, and so is what each kernel region
  leaves.  Hence from memories that agree on the eight arguments both programs end with the log-softmax layer of the
  mean of the first layer's output and that output.
-/
import proofs.«150844_j59373627900056_1_alg».proof.Proof.KernelValue
import proofs.«150844_j59373627900056_1_alg».proof.Proof.RefValue

set_option maxRecDepth 16384

noncomputable section

namespace Cert.Bridge

open Idealize.ShloMosaic Idealize.ShloMosaic.TcCoe Idealize.ShloMosaic.StableHlo Idealize.ShloMosaic.ValueIdx
open Idealize.SL.Sem Cert.Sage

/-! ## The host side, at any float values -/

section AnyValues
variable {F : FTy → Type} [FloatOps F]

theorem srcs_eq (e : (⟨Cert.KernelIdeal.S2x1250000, .i32⟩ : BufTy).Contents (Elt F)) :
    Cert.KernelIdeal.Glue.srcs e = Cert.ReferenceIdeal.Glue.srcs e := rfl

theorem dsts_eq (e : (⟨Cert.KernelIdeal.S2x1250000, .i32⟩ : BufTy).Contents (Elt F)) :
    Cert.KernelIdeal.Glue.dsts e = Cert.ReferenceIdeal.Glue.dsts e := rfl

theorem sums_eq (s d : (⟨Cert.KernelIdeal.S1250000, .i32⟩ : BufTy).Contents (Elt F))
    (H : (⟨Cert.KernelIdeal.S100000x64, .f32⟩ : BufTy).Contents (Elt F)) :
    Cert.KernelIdeal.Glue.sums s d H = Cert.ReferenceIdeal.Glue.sums s d H := rfl

theorem degMax_eq (d : (⟨Cert.KernelIdeal.S1250000, .i32⟩ : BufTy).Contents (Elt F)) :
    Cert.KernelIdeal.Glue.degMax d = Cert.ReferenceIdeal.Glue.degMax d := rfl

end AnyValues

/-! ## The mean, at the extended reals -/

/-- The law on arrays: for sums S and in-degrees G over the nodes, S scaled along the columns by 1 / max(G, 1) is S divided
    along the columns by max(G, 1). -/
theorem mean_core (S : FVec Ideal ⟨2, ![100000, 64]⟩ .f32) (G : FVec Ideal ⟨1, ![100000]⟩ .f32)
    (h1 h1' : (⟨1, ![100000]⟩ : Shape).BroadcastsInDim ⟨2, ![100000, 1]⟩ ![0])
    (h2 h2' : (⟨2, ![100000, 1]⟩ : Shape).BroadcastsInDim ⟨2, ![100000, 64]⟩ ![0, 1])
    (hb hb' : (⟨0, ![]⟩ : Shape).BroadcastsInDim ⟨1, ![100000]⟩ ![]) :
    mulf S (broadcastInDim ⟨2, ![100000, 64]⟩ ![0, 1] h2 (broadcastInDim ⟨2, ![100000, 1]⟩ ![0] h1
        (Host.divf (broadcastInDim ⟨1, ![100000]⟩ ![] hb (constant (F := Ideal) ⟨0, ![]⟩ .f32 0x3F800000#32))
          (maximumf G (broadcastInDim ⟨1, ![100000]⟩ ![] hb' (constant (F := Ideal) ⟨0, ![]⟩ .f32 0x3F800000#32))))))
      = Host.divf S (broadcastInDim ⟨2, ![100000, 64]⟩ ![0, 1] h2' (broadcastInDim ⟨2, ![100000, 1]⟩ ![0] h1'
        (maximumf G (broadcastInDim ⟨1, ![100000]⟩ ![] hb' (constant (F := Ideal) ⟨0, ![]⟩ .f32 0x3F800000#32))))) := by
  funext i
  obtain ⟨n, q, rfl⟩ : ∃ (n : Fin 100000) (q : Fin 64), i = ix2 n q := ⟨i 0, i 1, eq_ix2 i⟩
  show S (ix2 n q) * broadcastInDim ⟨2, ![100000, 64]⟩ ![0, 1] h2 (broadcastInDim ⟨2, ![100000, 1]⟩ ![0] h1
        (Host.divf (broadcastInDim ⟨1, ![100000]⟩ ![] hb (constant (F := Ideal) ⟨0, ![]⟩ .f32 0x3F800000#32))
          (maximumf G (broadcastInDim ⟨1, ![100000]⟩ ![] hb' (constant (F := Ideal) ⟨0, ![]⟩ .f32 0x3F800000#32))))) (ix2 n q)
      = Ideal.div (S (ix2 n q)) (broadcastInDim ⟨2, ![100000, 64]⟩ ![0, 1] h2' (broadcastInDim ⟨2, ![100000, 1]⟩ ![0] h1'
        (maximumf G (broadcastInDim ⟨1, ![100000]⟩ ![] hb' (constant (F := Ideal) ⟨0, ![]⟩ .f32 0x3F800000#32)))) (ix2 n q))
  rw [hostCols_apply, hostCol_apply, hostCols_apply, hostCol_apply]
  show S (ix2 n q) * Ideal.div (Ideal.ofBits .f32 0x3F800000#32) (max (G (ix1 n)) (Ideal.ofBits .f32 0x3F800000#32))
    = Ideal.div (S (ix2 n q)) (max (G (ix1 n)) (Ideal.ofBits .f32 0x3F800000#32))
  rw [one_f32]
  exact mul_inv_max_one _ _

/-- Scaling the sums by the reciprocal of the clamped in-degree is dividing them by it. -/
theorem mean_eq (s d : (⟨Cert.KernelIdeal.S1250000, .i32⟩ : BufTy).Contents (Elt Ideal))
    (H : (⟨Cert.KernelIdeal.S100000x64, .f32⟩ : BufTy).Contents (Elt Ideal)) :
    Cert.KernelIdeal.Glue.mean s d (Cert.KernelIdeal.Glue.invDeg d) H = Cert.ReferenceIdeal.Glue.mean s d H := by
  unfold Cert.KernelIdeal.Glue.mean Cert.KernelIdeal.Glue.invDeg Cert.ReferenceIdeal.Glue.mean
  rw [sums_eq, degMax_eq]
  unfold Cert.ReferenceIdeal.Glue.degMax Cert.KernelIdeal.Glue.cols Cert.ReferenceIdeal.Glue.cols
    Cert.KernelIdeal.Glue.ones Cert.ReferenceIdeal.Glue.ones
  exact mean_core _ _ _ _ _ _ _ _

/-! ## The reference's layers, at the extended reals -/

open Cert.ReferenceIdeal Cert.ReferenceIdeal.Facts₀ in
theorem hiddenTerm_eq (A X : Mat 100000 64) (Wl Wr : Mat 64 64) (b : Row 64) :
    Cert.ReferenceIdeal.Result.hiddenTerm (F := Ideal) A X Wl Wr b = hidden A X Wl Wr b := by
  unfold Cert.ReferenceIdeal.Result.hiddenTerm
  exact hostHidden_eq (N := 100000) A X Wl Wr b bcast_S64_S1x64_1 bcast_S1x64_S100000x64_0_1 bcast_S_S100000x64

open Cert.ReferenceIdeal Cert.ReferenceIdeal.Facts₀ in
theorem logp_eq (A X : Mat 100000 64) (Wl Wr : Mat 64 40) (b : Row 40) :
    Cert.ReferenceIdeal.Result.logSoftmaxTerm (F := Ideal) (Cert.ReferenceIdeal.Result.logitsTerm (F := Ideal) A X Wl Wr b)
      = logp A X Wl Wr b := by
  unfold Cert.ReferenceIdeal.Result.logSoftmaxTerm Cert.ReferenceIdeal.Result.shiftedTerm Cert.ReferenceIdeal.Result.rowMaxTerm
  refine (hostLogSoftmax_eq (N := 100000) (Cert.ReferenceIdeal.Result.logitsTerm (F := Ideal) A X Wl Wr b) reducesTo_S100000x40_S100000_d1
    (by decide) h_S_ bcast_S_S100000 bcast_S100000_S100000x1_0 bcast_S100000x1_S100000x40_0_1).trans ?_
  funext i
  unfold logp Cert.ReferenceIdeal.Result.logitsTerm
  exact congrArg (fun o => logSoftmaxRow o (i 1)) (funext fun k =>
    hostLin_apply (N := 100000) A X Wl Wr b bcast_S40_S1x40_1 bcast_S1x40_S100000x40_0_1 (i 0) k)

/-! ## The two results -/

/-- From memories that agree on the eight arguments, the reference's fold at its result buffer is what the kernel
    program's second region leaves in its output array. -/
theorem results_agree (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    after (Cert.ReferenceIdeal.ValueP.ops (F := Ideal)) (launchContents m' c) (Proc.devRef .tc Cert.ReferenceIdeal.main_v55)
      = Cert.KernelIdeal.Gen.W4 m ρ c (Proc.devRef .tc Cert.KernelIdeal.main_v41) := by
  obtain ⟨h0, h1, h2, h3, h4, h5, h6, h7⟩ := h
  refine (Cert.ReferenceIdeal.Result.result_term (F := Ideal) m' c).trans
    (Eq.trans ?_ (Cert.KernelIdeal.Result.result_eq m ρ c).symm)
  unfold Cert.ReferenceIdeal.Result.hiddenR Cert.KernelIdeal.Result.hiddenK
  rw [h0, h1, h2, h3, h4, h5, h6, h7]
  rw [hiddenTerm_eq, logp_eq, ← srcs_eq, ← dsts_eq, ← mean_eq, ← mean_eq]

end Cert.Bridge

end
-- ==== Proof.lean ====
/-
  A two-layer graph network on 100000 nodes and 1250000 edges: each layer replaces a node's features by
  W_l · (mean of its in-neighbours' features) + b + W_r · (its own features); the first layer is clamped at zero, the
  second is followed by a log-softmax over its 40 classes.  The kernel program forms the neighbour sums and in-degrees on
  the host, scales the sums by 1 / max(deg, 1), and runs each layer's dense part as a kernel over 50 blocks of 2000
  nodes; the reference divides the sums by max(deg, 1) and does everything on the host.

  On the extended reals the two are one function of the eight arguments: scaling by the reciprocal of a number that is at
  least one is dividing by it, at the infinities too (no finiteness of the inputs is used); a matrix product into a zero
  accumulator is the product; a block of a layer's output is the layer of the block; and the reference's extra maximum
  with minus infinity changes nothing.  The three programs run without fault and leave their arguments unchanged: the two
  kernel programs by their frames, the reference by its run; and the idealization rewrote nothing.
-/
import proofs.«150844_j59373627900056_1_alg».proof.Defs
import proofs.«150844_j59373627900056_1_alg».proof.Proof.Gen.Kernel
import proofs.«150844_j59373627900056_1_alg».proof.Proof.Gen.Kernel.Skeleton
import proofs.«150844_j59373627900056_1_alg».proof.Proof.Gen.Kernel.Launch
import proofs.«150844_j59373627900056_1_alg».proof.Proof.Gen.Kernel.Points
import proofs.«150844_j59373627900056_1_alg».proof.Proof.Gen.Kernel.Frame
import proofs.«150844_j59373627900056_1_alg».proof.Proof.Gen.KernelIdeal
import proofs.«150844_j59373627900056_1_alg».proof.Proof.Gen.KernelIdeal.Skeleton
import proofs.«150844_j59373627900056_1_alg».proof.Proof.Gen.KernelIdeal.Launch
import proofs.«150844_j59373627900056_1_alg».proof.Proof.Gen.KernelIdeal.Points
import proofs.«150844_j59373627900056_1_alg».proof.Proof.Gen.KernelIdeal.Frame
import proofs.«150844_j59373627900056_1_alg».proof.Proof.Gen.ReferenceIdeal
import proofs.«150844_j59373627900056_1_alg».proof.Proof.Gen.Pre_finite_inputs
import proofs.«150844_j59373627900056_1_alg».proof.Proof.RefRun
import proofs.«150844_j59373627900056_1_alg».proof.Proof.KernelRun
import proofs.«150844_j59373627900056_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments. -/
theorem frame_kernel : Cert.frame_Kernel := fun m ρ _ => Cert.Kernel.Gen.frame m ρ

/-- The idealized kernel program runs and leaves its arguments. -/
theorem frame_kernelIdeal : Cert.frame_KernelIdeal := fun m ρ _ => Cert.KernelIdeal.Gen.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the same result array: what the kernel program's
    second region leaves, which the reference's fold of host operations equals. -/
theorem algebraic : Cert.algebraic_KernelIdeal_ReferenceIdeal := by
  intro m ρ m' ρ' _ hagree
  refine ⟨fun c => Cert.KernelIdeal.Gen.W4 m ρ c (Proc.devRef .tc Cert.KernelIdeal.main_v41),
    Cert.KernelIdeal.Run.run_result m ρ, ?_⟩
  exact (θ_run Cert.ReferenceIdeal.defs _ _).mono
    (fun _ h c => ⟨(h c).1.trans (Cert.Bridge.results_agree m ρ m' c (hagree c)), (h c).2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
